-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x768 : Shape := ⟨3, ![8, 1024, 768]⟩
abbrev S8x1024x1 : Shape := ⟨3, ![8, 1024, 1]⟩
abbrev S2304x768 : Shape := ⟨2, ![2304, 768]⟩
abbrev S768x768 : Shape := ⟨2, ![768, 768]⟩
abbrev S768 : Shape := ⟨1, ![768]⟩
abbrev S_ : Shape := ⟨0, ![]⟩

class Facts : Prop where
  bcast_S_S8x1024x768 : S_.BroadcastsInDim S8x1024x768 (![] : Fin 0 → Fin S8x1024x768.rank)
  reducesTo_S8x1024x768_S_d0_1_2 : S8x1024x768.ReducesTo [0, 1, 2] S_
  h_S_ : 0 < S_.numel
  bcast_S_S8x1024x1 : S_.BroadcastsInDim S8x1024x1 (![] : Fin 0 → Fin S8x1024x1.rank)
  reducesTo_S8x1024x1_S_d0_1_2 : S8x1024x1.ReducesTo [0, 1, 2] S_
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S8x1024x768 .f32) (main_arg1 : FVec F S8x1024x1 .f32) (main_arg2 : FVec F S2304x768 .f32) (main_arg3 : FVec F S768x768 .f32) (main_arg4 : FVec F S768 .f32) : IVec S_ 1 :=
  let main_v0 : FVec F S8x1024x768 .f32 := Host.absf main_arg0
  let main_cst : FVec F S_ .f32 := constant S_ .f32 0x7F800000#32
  let main_v1 : FVec F S8x1024x768 .f32 := broadcastInDim S8x1024x768 ![] bcast_S_S8x1024x768 main_cst
  let main_v2 : IVec S8x1024x768 1 := cmpf .olt main_v0 main_v1
  let main_c : IVec S_ 1 := constantI S_ 1 1#1
  let main_v3 : IVec S_ 1 := (fun x v => Host.reduce IntOp.andi x v reducesTo_S8x1024x768_S_d0_1_2 h_S_) main_v2 main_c
  let main_v4 : FVec F S8x1024x1 .f32 := Host.absf main_arg1
  let main_cst_0 : FVec F S_ .f32 := constant S_ .f32 0x7F800000#32
  let main_v5 : FVec F S8x1024x1 .f32 := broadcastInDim S8x1024x1 ![] bcast_S_S8x1024x1 main_cst_0
  let main_v6 : IVec S8x1024x1 1 := cmpf .olt main_v4 main_v5
  let main_c_1 : IVec S_ 1 := constantI S_ 1 1#1
  let main_v7 : IVec S_ 1 := (fun x v => Host.reduce IntOp.andi x v reducesTo_S8x1024x1_S_d0_1_2 h_S_) main_v6 main_c_1
  let main_v8 : IVec S_ 1 := andi main_v3 main_v7
  let main_v9 : FVec F S2304x768 .f32 := Host.absf main_arg2
  let main_cst_2 : FVec F S_ .f32 := constant S_ .f32 0x7F800000#32
  let main_v10 : FVec F S2304x768 .f32 := broadcastInDim S2304x768 ![] bcast_S_S2304x768 main_cst_2
  let main_v11 : IVec S2304x768 1 := cmpf .olt main_v9 main_v10
  let main_c_3 : IVec S_ 1 := constantI S_ 1 1#1
  let main_v12 : IVec S_ 1 := (fun x v => Host.reduce IntOp.andi x v reducesTo_S2304x768_S_d0_1 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S8x1024x768 : Shape := ⟨3, ![8, 1024, 768]⟩
abbrev S8x1024x1 : Shape := ⟨3, ![8, 1024, 1]⟩
abbrev S2304x768 : Shape := ⟨2, ![2304, 768]⟩
abbrev S768x768 : Shape := ⟨2, ![768, 768]⟩
abbrev S768 : Shape := ⟨1, ![768]⟩
abbrev S12x64x768 : Shape := ⟨3, ![12, 64, 768]⟩
abbrev S8x1024 : Shape := ⟨2, ![8, 1024]⟩
abbrev S8x1x1024 : Shape := ⟨3, ![8, 1, 1024]⟩
abbrev S1x768 : Shape := ⟨2, ![1, 768]⟩
abbrev S1x1024x768 : Shape := ⟨3, ![1, 1024, 768]⟩
abbrev S1x64x768 : Shape := ⟨3, ![1, 64, 768]⟩
abbrev S1x1x1024 : Shape := ⟨3, ![1, 1, 1024]⟩
abbrev S1024x768 : Shape := ⟨2, ![1024, 768]⟩
abbrev S64x768 : Shape := ⟨2, ![64, 768]⟩
abbrev S1x1024 : Shape := ⟨2, ![1, 1024]⟩
abbrev S768x64 : Shape := ⟨2, ![768, 64]⟩
abbrev S1024x64 : Shape := ⟨2, ![1024, 64]⟩
abbrev S64x1024 : Shape := ⟨2, ![64, 1024]⟩
abbrev S1x256x768 : Shape := ⟨3, ![1, 256, 768]⟩
abbrev S256x768 : Shape := ⟨2, ![256, 768]⟩
abbrev S256x64 : Shape := ⟨2, ![256, 64]⟩
abbrev S256x1024 : Shape := ⟨2, ![256, 1024]⟩
abbrev S256 : Shape := ⟨1, ![256]⟩
abbrev S256x1 : Shape := ⟨2, ![256, 1]⟩

abbrev nBuf : Space → Nat
  | .hbm => 22
  | .vmem => 16
  | .smem => 0
  | _ => 0

abbrev bufTy : (tb : Table) → Fin (tcTables nBuf tb) → BufTy
  | .hbm, ⟨0, _⟩ => ⟨S8x1024x768, .f32⟩
  | .hbm, ⟨1, _⟩ => ⟨S8x1024x1, .f32⟩
  | .hbm, ⟨2, _⟩ => ⟨S2304x768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S12x64x768, .f32⟩
  | .hbm, ⟨7, _⟩ => ⟨S12x64x768, .bf16⟩
  | .hbm, ⟨8, _⟩ => ⟨S768x768, .f32⟩
  | .hbm, ⟨9, _⟩ => ⟨S12x64x768, .f32⟩
  | .hbm, ⟨10, _⟩ => ⟨S12x64x768, .bf16⟩
  | .hbm, ⟨11, _⟩ => ⟨S768x768, .f32⟩
  | .hbm, ⟨12, _⟩ => ⟨S12x64x768, .f32⟩
  | .hbm, ⟨13, _⟩ => ⟨S12x64x768, .bf16⟩
  | .hbm, ⟨14, _⟩ => ⟨S768x768, .f32⟩
  | .hbm, ⟨15, _⟩ => ⟨S12x64x768, .f32⟩
  | .hbm, ⟨16, _⟩ => ⟨S12x64x768, .bf16⟩
  | .hbm, ⟨17, _⟩ => ⟨S8x1024x768, .bf16⟩
  | .hbm, ⟨18, _⟩ => ⟨S8x1024, .f32⟩
  | .hbm, ⟨19, _⟩ => ⟨S8x1x1024, .f32⟩
  | .hbm, ⟨20, _⟩ => ⟨S1x768, .f32⟩
  | .hbm, ⟨21, _⟩ => ⟨S8x1024x768, .f32⟩
  | .local _ .vmem, ⟨0, _⟩ => ⟨S1x1024x768, .bf16⟩
  | .local _ .vmem, ⟨1, _⟩ => ⟨S1x1024x768, .bf16⟩
  | .local _ .vmem, ⟨2, _⟩ => ⟨S1x64x768, .bf16⟩
  | .local _ .vmem, ⟨3, _⟩ => ⟨S1x64x768, .bf16⟩
  | .local _ .vmem, ⟨4, _⟩ => ⟨S1x64x768, .bf16⟩
  | .local _ .vmem, ⟨5, _⟩ => ⟨S1x64x768, .bf16⟩
  | .local _ .vmem, ⟨6, _⟩ => ⟨S1x64x768, .bf16⟩
  | .local _ .vmem, ⟨7, _⟩ => ⟨S1x64x768, .bf16⟩
  | .local _ .vmem, ⟨8, _⟩ => ⟨S1x64x768, .bf16⟩
  | .local _ .vmem, ⟨9, _⟩ => ⟨S1x64x768, .bf16⟩
  | .local _ .vmem, ⟨10, _⟩ => ⟨S1x1x1024, .f32⟩
  | .local _ .vmem, ⟨11, _⟩ => ⟨S1x1x1024, .f32⟩
  | .local _ .vmem, ⟨12, _⟩ => ⟨S1x768, .f32⟩
  | .local _ .vmem, ⟨13, _⟩ => ⟨S1x1024x768, .f32⟩
  | .local _ .vmem, ⟨14, _⟩ => ⟨S1x1024x768, .f32⟩
  | .local _ .vmem, ⟨15, _⟩ => ⟨S1024x768, .f32⟩
  | _, _ => ⟨S8x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![8, 12], ![false, false]⟩

@[reducible] def k0_t1_loop : Scf.Loop 32 :=
  let c0_i32_19 : BitVec 32 := 0#32
  let c4_i32 : BitVec 32 := 4#32
  let v23 : BitVec 32 := Scalar.addi c0_i32_19 c4_i32
  let c1_i32 : BitVec 32 := 1#32
  ⟨c0_i32_19, v23, c1_i32⟩
def k0_mult1 (k0_t1 : Fin k0_t1_loop.trips) : BitVec 32 :=
  let c0_i32_23 : BitVec 32 := 0#32
  let c0_i32_19 : BitVec 32 := 0#32
  let c1_i32 : BitVec 32 := 1#32
  let arg11 : BitVec 32 := Scf.iv c0_i32_19 c1_i32 k0_t1
  let c1_i32_22 : BitVec 32 := 1#32
  let v27 : BitVec 32 := Scalar.muli arg11 c1_i32_22
  let v28 : BitVec 32 := Scalar.addi c0_i32_23 v27
  let c256_i32 : BitVec 32 := 256#32
  let v29 : BitVec 32 := Scalar.muli v28 c256_i32
  v29
def k0_off1 (k0_t1 : Fin k0_t1_loop.trips) : Fin 3 → Nat :=
  let c0_24 : Index := 0#32
  let c0_i32_23 : BitVec 32 := 0#32
  let c0_i32_19 : BitVec 32 := 0#32
  let c1_i32 : BitVec 32 := 1#32
  let arg11 : BitVec 32 := Scf.iv c0_i32_19 c1_i32 k0_t1
  let c1_i32_22 : BitVec 32 := 1#32
  let v27 : BitVec 32 := Scalar.muli arg11 c1_i32_22
  let v28 : BitVec 32 := Scalar.addi c0_i32_23 v27
  let c256_i32 : BitVec 32 := 256#32
  let v29 : BitVec 32 := Scalar.muli v28 c256_i32
  let v30 : BitVec 32 := v29
  let v31 : Index := Scalar.indexCast v30
  let c0_25 : Index := 0#32
  ![0, v31.toNat, 0]
def k0_off2 (k0_t1 : Fin k0_t1_loop.trips) : Fin 2 → Nat :=
  let c0_i32_23 : BitVec 32 := 0#32
  let c0_i32_19 : BitVec 32 := 0#32
  let c1_i32 : BitVec 32 := 1#32
  let arg11 : BitVec 32 := Scf.iv c0_i32_19 c1_i32 k0_t1
  let c1_i32_22 : BitVec 32 := 1#32
  let v27 : BitVec 32 := Scalar.muli arg11 c1_i32_22
  let v28 : BitVec 32 := Scalar.addi c0_i32_23 v27
  let c256_i32 : BitVec 32 := 256#32
  let v29 : BitVec 32 := Scalar.muli v28 c256_i32
  let v30 : BitVec 32 := v29
  let v66 : Index := Scalar.indexCast v30
  let c0_36 : Index := 0#32
  ![v66.toNat, 0]
def k0_cond2 (i : grid0.Coords) : BitVec 1 :=
  let arg1 : BitVec 32 := BitVec.ofNat 32 (i 1).val
  let c11_i32 : BitVec 32 := 11#32
  let v24 : BitVec 1 := Scalar.cmpi .eq arg1 c11_i32
  let v25 : BitVec 32 := Scalar.extui v24
  let c0_i32_21 : BitVec 32 := 0#32
  let v26 : BitVec 1 := Scalar.cmpi .ne v25 c0_i32_21
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x64x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x64x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x64x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

class Facts₀ : Prop where
  slices_S2304x768_S768x768_0_0 : S2304x768.Slices ![0, 0] S768x768
  shapeCasts_S768x768_S12x64x768 : S768x768.ShapeCasts S12x64x768
  bitsLt_bf16_f32 : FTy.bits .bf16 < FTy.bits .f32
  slices_S2304x768_S768x768_768_0 : S2304x768.Slices ![768, 0] S768x768
  slices_S2304x768_S768x768_1536_0 : S2304x768.Slices ![1536, 0] S768x768
  transposes_S768x768_S768x768_1_0 : S768x768.Transposes [1, 0] S768x768
  shapeCasts_S8x1024x1_S8x1024 : S8x1024x1.ShapeCasts S8x1024
  shapeCasts_S8x1024_S8x1x1024 : S8x1024.ShapeCasts S8x1x1024
  shapeCasts_S768_S1x768 : S768.ShapeCasts S1x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S1x64x768_S1x64x768_0_0_0 : ∀ a, (![0, 0, 0] : Fin 3 → Nat) a + S1x64x768.size a ≤ S1x64x768.size a
  h_S1x64x768 : 0 < S1x64x768.numel
  shapeCasts_S1x64x768_S64x768 : S1x64x768.ShapeCasts S64x768
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  transposes_S64x768_p1_0_S768x64 : S64x768.Transposes [1, 0] S768x64
  transposes_S1024x64_p1_0_S64x1024 : S1024x64.Transposes [1, 0] S64x1024
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  h_S1x256x768 : 0 < S1x256x768.numel
  shapeCasts_S1x256x768_S256x768 : S1x256x768.ShapeCasts S256x768
  reduces_S256x1024_S256 : S256x1024.Reduces [1] S256
  shapeCasts_S256_S256x1 : S256.ShapeCasts S256x1
  broadcasts_S256x1_S256x1024 : S256x1.Broadcasts S256x1024
  iota_S256x1024_d0_w32 : S256x1024.Iotas .tc 32 [0]
  iota_S256x1024_d1_w32 : S256x1024.Iotas .tc 32 [1]
  shapeCasts_S1x1024_S1x1024 : S1x1024.ShapeCasts S1x1024
  broadcasts_S1x1024_S256x1024 : S1x1024.Broadcasts S256x1024
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S768 : S1x768.ShapeCasts S768
  shapeCasts_S1x768_S1x768 : S1x768.ShapeCasts S1x768
  broadcasts_S1x768_S1024x768 : S1x768.Broadcasts S1024x768
  shapeCasts_S1024x768_S1x1024x768 : S1024x768.ShapeCasts S1x1024x768
  dot_S1024x768_S768x64_S1024x64_1_0_0_1_n_n_wf : DotDims.WF S1024x768 S768x64 S1024x64 [1] [0] [0] [1] [] []
  dot_S256x768_S768x64_S256x64_1_0_0_1_n_n_wf : DotDims.WF S256x768 S768x64 S256x64 [1] [0] [0] [1] [] []
  dot_S256x64_S64x1024_S256x1024_1_0_0_1_n_n_wf : DotDims.WF S256x64 S64x1024 S256x1024 [1] [0] [0] [1] [] []
  dot_S256x1024_S1024x64_S256x64_1_0_0_1_n_n_wf : DotDims.WF S256x1024 S1024x64 S256x64 [1] [0] [0] [1] [] []
  dot_S256x64_S64x768_S256x768_1_0_0_1_n_n_wf : DotDims.WF S256x64 S64x768 S256x768 [1] [0] [0] [1] [] []
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S1x256x768.size a ≤ S1x1024x768.size a
  k0_off2_inb : ∀ k0_t1 : Fin k0_t1_loop.trips, ∀ a, (k0_off2 k0_t1) a + S256x768.size a ≤ S1024x768.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x1024x768.size a
  hwx0_0 : ∀ i : grid0.Coords, EltTy.bits .bf16 = 32 ∨ (Rect.block (s := S8x1024x768) S1x1024x768.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x768.size a ≤ S12x64x768.size a
  hwx0_1 : ∀ i : grid0.Coords, EltTy.bits .bf16 = 32 ∨ (Rect.block (s := S12x64x768) S1x64x768.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x64x768.size a ≤ S12x64x768.size a
  hwx0_2 : ∀ i : grid0.Coords, EltTy.bits .bf16 = 32 ∨ (Rect.block (s := S12x64x768) S1x64x768.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x64x768.size a ≤ S12x64x768.size a
  hwx0_3 : ∀ i : grid0.Coords, EltTy.bits .bf16 = 32 ∨ (Rect.block (s := S12x64x768) S1x64x768.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x768.size a ≤ S12x64x768.size a
  hwx0_4 : ∀ i : grid0.Coords, EltTy.bits .bf16 = 32 ∨ (Rect.block (s := S12x64x768) S1x64x768.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S8x1x1024.size a
  hwx0_5 : ∀ i : grid0.Coords, EltTy.bits .f32 = 32 ∨ (Rect.block (s := S8x1x1024) S1x1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x768.size a ≤ S1x768.size a
  hwx0_6 : ∀ i : grid0.Coords, EltTy.bits .f32 = 32 ∨ (Rect.block (s := S1x768) S1x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1024x768.size a ≤ S8x1024x768.size a
  hwx0_7 : ∀ i : grid0.Coords, EltTy.bits .f32 = 32 ∨ (Rect.block (s := S8x1024x768) S1x1024x768.size (cc0_transform_7 i) (hinb0_7 i)).WholeWords (EltTy.packing .f32)

variable [Facts₀]

def dot_S1024x768_S768x64_S1024x64_1_0_0_1_n_n : DotDims S1024x768 S768x64 S1024x64 where
  lhsContracting := [1]
  rhsContracting := [0]
  lhsNonContracting := [0]
  rhsNonContracting := [1]
  lhsBatch := []
  rhsBatch := []
  wf := dot_S1024x768_S768x64_S1024x64_1_0_0_1_n_n_wf
def dot_S256x768_S768x64_S256x64_1_0_0_1_n_n : DotDims S256x768 S768x64 S256x64 where
  lhsContracting := [1]
  rhsContracting := [0]
  lhsNonContracting := [0]
  rhsNonContracting := [1]
  lhsBatch := []
  rhsBatch := []
  wf := dot_S256x768_S768x64_S256x64_1_0_0_1_n_n_wf
def dot_S256x64_S64x1024_S256x1024_1_0_0_1_n_n : DotDims S256x64 S64x1024 S256x1024 where
  lhsContracting := [1]
  rhsContracting := [0]
  lhsNonContracting := [0]
  rhsNonContracting := [1]
  lhsBatch := []
  rhsBatch := []
  wf := dot_S256x64_S64x1024_S256x1024_1_0_0_1_n_n_wf
def dot_S256x1024_S1024x64_S256x64_1_0_0_1_n_n : DotDims S256x1024 S1024x64 S256x64 where
  lhsContracting := [1]
  rhsContracting := [0]
  lhsNonContracting := [0]
  rhsNonContracting := [1]
  lhsBatch := []
  rhsBatch := []
  wf := dot_S256x1024_S1024x64_S256x64_1_0_0_1_n_n_wf
def dot_S256x64_S64x768_S256x768_1_0_0_1_n_n : DotDims S256x64 S64x768 S256x768 where
  lhsContracting := [1]
  rhsContracting := [0]
  lhsNonContracting := [0]
  rhsNonContracting := [1]
  lhsBatch := []
  rhsBatch := []
  wf := dot_S256x64_S64x768_S256x768_1_0_0_1_n_n_wf

abbrev win0_0 : Pipeline.Window sig grid0 :=
  Pipeline.Window.ofSpec (Memref.whole main_v12) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x64x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x64x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x64x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x64x768.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14) S1x1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x1024x768.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S8x1024x768 : Shape := ⟨3, ![8, 1024, 768]⟩
abbrev S8x1024x1 : Shape := ⟨3, ![8, 1024, 1]⟩
abbrev S2304x768 : Shape := ⟨2, ![2304, 768]⟩
abbrev S768x768 : Shape := ⟨2, ![768, 768]⟩
abbrev S768 : Shape := ⟨1, ![768]⟩
abbrev S8x1024x2304 : Shape := ⟨3, ![8, 1024, 2304]⟩
abbrev S8x1024x3x12x64 : Shape := ⟨5, ![8, 1024, 3, 12, 64]⟩
abbrev S3x8x12x1024x64 : Shape := ⟨5, ![3, 8, 12, 1024, 64]⟩
abbrev S1x8x12x1024x64 : Shape := ⟨5, ![1, 8, 12, 1024, 64]⟩
abbrev S8x12x1024x64 : Shape := ⟨4, ![8, 12, 1024, 64]⟩
abbrev S_ : Shape := ⟨0, ![]⟩
abbrev S8x12x1024x1024 : Shape := ⟨4, ![8, 12, 1024, 1024]⟩
abbrev S8x1x1x1024 : Shape := ⟨4, ![8, 1, 1, 1024]⟩
abbrev S1024x1024 : Shape := ⟨2, ![1024, 1024]⟩
abbrev S1x1x1024x1024 : Shape := ⟨4, ![1, 1, 1024, 1024]⟩
abbrev S8x1x1024x1024 : Shape := ⟨4, ![8, 1, 1024, 1024]⟩
abbrev S8x12x1024 : Shape := ⟨3, ![8, 12, 1024]⟩
abbrev S8x12x1024x1 : Shape := ⟨4, ![8, 12, 1024, 1]⟩
abbrev S8x1024x12x64 : Shape := ⟨4, ![8, 1024, 12, 64]⟩
abbrev S1x1x768 : Shape := ⟨3, ![1, 1, 768]⟩

abbrev nBuf : Space → Nat
  | .hbm => 61
  | .vmem => 0
  | .smem => 0
  | _ => 0

abbrev bufTy : (tb : Table) → Fin (tcTables nBuf tb) → BufTy
  | .hbm, ⟨0, _⟩ => ⟨S8x1024x768, .f32⟩
  | .hbm, ⟨1, _⟩ => ⟨S8x1024x1, .f32⟩
  | .hbm, ⟨2, _⟩ => ⟨S2304x768, .f32⟩
  | .hbm, ⟨3, _⟩ => ⟨S768x768, .f32⟩
  | .hbm, ⟨4, _⟩ => ⟨S768, .f32⟩
  | .hbm, ⟨5, _⟩ => ⟨S8x1024x2304, .f32⟩
  | .hbm, ⟨6, _⟩ => ⟨S8x1024x3x12x64, .f32⟩
  | .hbm, ⟨7, _⟩ => ⟨S3x8x12x1024x64, .f32⟩
  | .hbm, ⟨8, _⟩ => ⟨S1x8x12x1024x64, .f32⟩
  | .hbm, ⟨9, _⟩ => ⟨S8x12x1024x64, .f32⟩
  | .hbm, ⟨10, _⟩ => ⟨S_, .f32⟩
  | .hbm, ⟨11, _⟩ => ⟨S8x12x1024x64, .f32⟩
  | .hbm, ⟨12, _⟩ => ⟨S8x12x1024x64, .f32⟩
  | .hbm, ⟨13, _⟩ => ⟨S1x8x12x1024x64, .f32⟩
  | .hbm, ⟨14, _⟩ => ⟨S8x12x1024x64, .f32⟩
  | .hbm, ⟨15, _⟩ => ⟨S1x8x12x1024x64, .f32⟩
  | .hbm, ⟨16, _⟩ => ⟨S8x12x1024x64, .f32⟩
  | .hbm, ⟨17, _⟩ => ⟨S8x12x1024x1024, .f32⟩
  | .hbm, ⟨18, _⟩ => ⟨S8x1x1x1024, .f32⟩
  | .hbm, ⟨19, _⟩ => ⟨S1024x1024, .i32⟩
  | .hbm, ⟨20, _⟩ => ⟨S1024x1024, .i32⟩
  | .hbm, ⟨21, _⟩ => ⟨S_, .i32⟩
  | .hbm, ⟨22, _⟩ => ⟨S1024x1024, .i32⟩
  | .hbm, ⟨23, _⟩ => ⟨S1024x1024, .i32⟩
  | .hbm, ⟨24, _⟩ => ⟨S1024x1024, .i1⟩
  | .hbm, ⟨25, _⟩ => ⟨S1024x1024, .f32⟩
  | .hbm, ⟨26, _⟩ => ⟨S1x1x1024x1024, .f32⟩
  | .hbm, ⟨27, _⟩ => ⟨S_, .f32⟩
  | .hbm, ⟨28, _⟩ => ⟨S8x1x1x1024, .f32⟩
  | .hbm, ⟨29, _⟩ => ⟨S8x1x1x1024, .f32⟩
  | .hbm, ⟨30, _⟩ => ⟨S8x1x1024x1024, .f32⟩
  | .hbm, ⟨31, _⟩ => ⟨S8x1x1024x1024, .f32⟩
  | .hbm, ⟨32, _⟩ => ⟨S8x1x1024x1024, .f32⟩
  | .hbm, ⟨33, _⟩ => ⟨S8x1x1024x1024, .f32⟩
  | .hbm, ⟨34, _⟩ => ⟨S8x1x1024x1024, .f32⟩
  | .hbm, ⟨35, _⟩ => ⟨S_, .f32⟩
  | .hbm, ⟨36, _⟩ => ⟨S8x12x1024, .f32⟩
  | .hbm, ⟨37, _⟩ => ⟨S8x12x1024x1, .f32⟩
  | .hbm, ⟨38, _⟩ => ⟨S8x12x1024x1024, .f32⟩
  | .hbm, ⟨39, _⟩ => ⟨S8x12x1024x1024, .f32⟩
  | .hbm, ⟨40, _⟩ => ⟨S8x12x1024x1024, .f32⟩
  | .hbm, ⟨41, _⟩ => ⟨S8x12x1024x1024, .f32⟩
  | .hbm, ⟨42, _⟩ => ⟨S8x12x1024x1024, .f32⟩
  | .hbm, ⟨43, _⟩ => ⟨S_, .f32⟩
  | .hbm, ⟨44, _⟩ => ⟨S8x12x1024x1024, .f32⟩
  | .hbm, ⟨45, _⟩ => ⟨S8x12x1024x1024, .f32⟩
  | .hbm, ⟨46, _⟩ => ⟨S_, .f32⟩
  | .hbm, ⟨47, _⟩ => ⟨S8x12x1024, .f32⟩
  | .hbm, ⟨48, _⟩ => ⟨S8x12x1024x1, .f32⟩
  | .hbm, ⟨49, _⟩ => ⟨S_, .f32⟩
  | .hbm, ⟨50, _⟩ => ⟨S8x12x1024x1, .f32⟩
  | .hbm, ⟨51, _⟩ => ⟨S8x12x1024x1, .f32⟩
  | .hbm, ⟨52, _⟩ => ⟨S8x12x1024x1024, .f32⟩
  | .hbm, ⟨53, _⟩ => ⟨S8x12x1024x1024, .f32⟩
  | .hbm, ⟨54, _⟩ => ⟨S8x12x1024x64, .f32⟩
  | .hbm, ⟨55, _⟩ => ⟨S8x1024x12x64, .f32⟩
  | .hbm, ⟨56, _⟩ => ⟨S8x1024x768, .f32⟩
  | .hbm, ⟨57, _⟩ => ⟨S8x1024x768, .f32⟩
  | .hbm, ⟨58, _⟩ => ⟨S1x1x768, .f32⟩
  | .hbm, ⟨59, _⟩ => ⟨S8x1024x768, .f32⟩
  | .hbm, ⟨60, _⟩ => ⟨S8x1024x768, .f32⟩
  | _, _ => ⟨S8x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_1 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩

abbrev nD : Nat := 1
abbrev τ : Topo := Topo.v7x

variable {F : FTy → Type} [FloatOps F]

class Facts₀ : Prop where
  shapeCasts_S8x1024x2304_S8x1024x3x12x64 : S8x1024x2304.ShapeCasts S8x1024x3x12x64
  transposes_S8x1024x3x12x64_S3x8x12x1024x64_2_0_3_1_4 : S8x1024x3x12x64.Transposes [2, 0, 3, 1, 4] S3x8x12x1024x64
  slices_S3x8x12x1024x64_S1x8x12x1024x64_0_0_0_0_0 : S3x8x12x1024x64.Slices ![0, 0, 0, 0, 0] S1x8x12x1024x64
  shapeCasts_S1x8x12x1024x64_S8x12x1024x64 : S1x8x12x1024x64.ShapeCasts S8x12x1024x64
  bcast_S_S8x12x1024x64 : S_.BroadcastsInDim S8x12x1024x64 (![] : Fin 0 → Fin S8x12x1024x64.rank)
  slices_S3x8x12x1024x64_S1x8x12x1024x64_1_0_0_0_0 : S3x8x12x1024x64.Slices ![1, 0, 0, 0, 0] S1x8x12x1024x64
  slices_S3x8x12x1024x64_S1x8x12x1024x64_2_0_0_0_0 : S3x8x12x1024x64.Slices ![2, 0, 0, 0, 0] S1x8x12x1024x64
  shapeCasts_S8x1024x1_S8x1x1x1024 : S8x1024x1.ShapeCasts S8x1x1x1024
  bcast_S_S1024x1024 : S_.BroadcastsInDim S1024x1024 (![] : Fin 0 → Fin S1024x1024.rank)
  shapeCasts_S1024x1024_S1x1x1024x1024 : S1024x1024.ShapeCasts S1x1x1024x1024
  bcast_S_S8x1x1x1024 : S_.BroadcastsInDim S8x1x1x1024 (![] : Fin 0 → Fin S8x1x1x1024.rank)
  bcast_S8x1x1x1024_S8x1x1024x1024_0_1_2_3 : S8x1x1x1024.BroadcastsInDim S8x1x1024x1024 (![0, 1, 2, 3] : Fin 4 → Fin S8x1x1024x1024.rank)
  bcast_S1x1x1024x1024_S8x1x1024x1024_0_1_2_3 : S1x1x1024x1024.BroadcastsInDim S8x1x1024x1024 (![0, 1, 2, 3] : Fin 4 → Fin S8x1x1024x1024.rank)
  reducesTo_S8x12x1024x1024_S8x12x1024_d3 : S8x12x1024x1024.ReducesTo [3] S8x12x1024
  h_S_ : 0 < S_.numel
  bcast_S8x12x1024_S8x12x1024x1_0_1_2 : S8x12x1024.BroadcastsInDim S8x12x1024x1 (![0, 1, 2] : Fin 3 → Fin S8x12x1024x1.rank)
  bcast_S8x12x1024x1_S8x12x1024x1024_0_1_2_3 : S8x12x1024x1.BroadcastsInDim S8x12x1024x1024 (![0, 1, 2, 3] : Fin 4 → Fin S8x12x1024x1024.rank)
  bcast_S8x1x1024x1024_S8x12x1024x1024_0_1_2_3 : S8x1x1024x1024.BroadcastsInDim S8x12x1024x1024 (![0, 1, 2, 3] : Fin 4 → Fin S8x12x1024x1024.rank)
  bcast_S_S8x12x1024x1024 : S_.BroadcastsInDim S8x12x1024x1024 (![] : Fin 0 → Fin S8x12x1024x1024.rank)
  bcast_S_S8x12x1024x1 : S_.BroadcastsInDim S8x12x1024x1 (![] : Fin 0 → Fin S8x12x1024x1.rank)
  transposes_S8x12x1024x64_S8x1024x12x64_0_2_1_3 : S8x12x1024x64.Transposes [0, 2, 1, 3] S8x1024x12x64
  shapeCasts_S8x1024x12x64_S8x1024x768 : S8x1024x12x64.ShapeCasts S8x1024x768
  bcast_S768_S1x1x768_2 : S768.BroadcastsInDim S1x1x768 (![2] : Fin 1 → Fin S1x1x768.rank)
  bcast_S1x1x768_S8x1024x768_0_1_2 : S1x1x768.BroadcastsInDim S8x1024x768 (![0, 1, 2] : Fin 3 → Fin S8x1024x768.rank)
  dot_S8x1024x768_S2304x768_S8x1024x2304_2_1_01_0_n_n_wf : DotDims.WF S8x1024x768 S2304x768 S8x1024x2304 [2] [1] [0, 1] [0] [] []
  dot_S8x12x1024x64_S8x12x1024x64_S8x12x1024x1024_3_3_2_2_01_01_wf : DotDims.WF S8x12x1024x64 S8x12x1024x64 S8x12x1024x1024 [3] [3] [2] [2] [0, 1] [0, 1]
  dot_S8x12x1024x1024_S8x12x1024x64_S8x12x1024x64_3_2_2_3_01_01_wf : DotDims.WF S8x12x1024x1024 S8x12x1024x64 S8x12x1024x64 [3] [2] [2] [3] [0, 1] [0, 1]
  dot_S8x1024x768_S768x768_S8x1024x768_2_1_01_0_n_n_wf : DotDims.WF S8x1024x768 S768x768 S8x1024x768 [2] [1] [0, 1] [0] [] []

variable [Facts₀]

def dot_S8x1024x768_S2304x768_S8x1024x2304_2_1_01_0_n_n : DotDims S8x1024x768 S2304x768 S8x1024x2304 where
  lhsContracting := [2]
  rhsContracting := [1]
  lhsNonContracting := [0, 1]
  rhsNonContracting := [0]
  lhsBatch := []
  rhsBatch := []
  wf := dot_S8x1024x768_S2304x768_S8x1024x2304_2_1_01_0_n_n_wf
def dot_S8x12x1024x64_S8x12x1024x64_S8x12x1024x1024_3_3_2_2_01_01 : DotDims S8x12x1024x64 S8x12x1024x64 S8x12x1024x1024 where
  lhsContracting := [3]
  rhsContracting := [3]
  lhsNonContracting := [2]
  rhsNonContracting := [2]
  lhsBatch := [0, 1]
  rhsBatch := [0, 1]
  wf := dot_S8x12x1024x64_S8x12x1024x64_S8x12x1024x1024_3_3_2_2_01_01_wf
def dot_S8x12x1024x1024_S8x12x1024x64_S8x12x1024x64_3_2_2_3_01_01 : DotDims S8x12x1024x1024 S8x12x1024x64 S8x12x1024x64 where
  lhsContracting := [3]
  rhsContracting := [2]
  lhsNonContracting := [2]
  rhsNonContracting := [3]
  lhsBatch := [0, 1]
  rhsBatch := [0, 1]
  wf := dot_S8x12x1024x1024_S8x12x1024x64_S8x12x1024x64_3_2_2_3_01_01_wf
def dot_S8x1024x768_S768x768_S8x1024x768_2_1_01_0_n_n : DotDims S8x1024x768 S768x768 S8x1024x768 where
  lhsContracting := [2]
  rhsContracting := [1]
  lhsNonContracting := [0, 1]
  rhsNonContracting := [0]
  lhsBatch := []
  rhsBatch := []
  wf := dot_S8x1024x768_S768x768_S8x1024x768_2_1_01_0_n_n_wf

class Facts : Prop extends Facts₀ where

variable [Facts]
-- ==== Proof.Spec.lean ====
/-
  One multi-head attention block with a keep-mask on the keys, as ONE function of its five argument arrays,
  index by index over the extended reals.

  For a batch entry and a head, with token rows `x n`, per-head weight rows `wq d`, `wk d`, `wv d`, an output
  weight `wo d o` and a keep factor `keep n m` for query `n` and key `m`:
    projection   p_w n d   = Σ_c x n c · w d c
    query        q n d     = p_wq n d · 1/8
    score        s n m     = Σ_d q n d · p_wk m d
    row maximum  M n       = max over m of s n m (from -∞)
    weight       e n m     = exp (s n m − M n) · keep n m
    probability  π n m     = (e n m + ε/N) / (Σ_m e n m + ε)
    mixture      a n d     = Σ_m π n m · p_wv m d
    head output  h n o     = Σ_d a n d · wo d o
  and the block's result at (b, n, o) is the sum over the twelve heads of `h n o` plus the bias at `o`.

  Two spellings of the keep factor occur: by selection (1 on the diagonal, the key's policy elsewhere) and by
  arithmetic (policy + (1 − policy) · [n = m]); they agree where the policy is a real number. Two spellings of
  the last contraction occur: head by head (Σ_h Σ_d) and over the flattened feature axis (Σ_c, c = 64·h + d).
-/
import Idealize.ShloMosaic.PureOps.Ideal
import Idealize.ShloMosaic.Lib.ValueIdx

noncomputable section

namespace Cert.AttnSpec

open Idealize.ShloMosaic Idealize.ShloMosaic.ValueIdx

/-! ## The float literals both programs share, as the extended reals their words denote -/

/-- 1/8, the attention scale for a head of width 64. -/
abbrev cScale : EReal := Ideal.ofBits .f32 0x3E000000#32
/-- 1. -/
abbrev cOne : EReal := Ideal.ofBits .f32 0x3F800000#32
/-- 0. -/
abbrev cZero : EReal := Ideal.ofBits .f32 0x00000000#32
/-- -∞, the start of a row maximum. -/
abbrev cNegInf : EReal := Ideal.ofBits .f32 0xFF800000#32
/-- ε / N for N = 1024 keys. -/
abbrev cEpsN : EReal := Ideal.ofBits .f32 0x308637BD#32
/-- ε. -/
abbrev cEps : EReal := Ideal.ofBits .f32 0x358637BD#32

/-! ## One head -/

section Head

variable (x : Fin 1024 → Fin 768 → EReal) (wq wk wv : Fin 64 → Fin 768 → EReal) (wo : Fin 64 → Fin 768 → EReal)
  (keep : Fin 1024 → Fin 1024 → EReal)

/-- Token `n` projected on weight row `d`. -/
def hProj (w : Fin 64 → Fin 768 → EReal) (n : Fin 1024) (d : Fin 64) : EReal := ∑ c : Fin 768, x n c * w d c

/-- The scaled query. -/
def hQ (n : Fin 1024) (d : Fin 64) : EReal := hProj x wq n d * cScale

/-- The score of query `n` against key `m`. -/
def hScore (n m : Fin 1024) : EReal := ∑ d : Fin 64, hQ x wq n d * hProj x wk m d

/-- The largest score of query `n`, folded from -∞. -/
def hMax (n : Fin 1024) : EReal := (Finset.univ : Finset (Fin 1024)).fold max cNegInf (fun m => hScore x wq wk n m)

/-- The unnormalised weight of key `m` for query `n`, the keep factor applied. -/
def hEm (n m : Fin 1024) : EReal := Ideal.exp (hScore x wq wk n m - hMax x wq wk n) * keep n m

/-- The normaliser of query `n`. -/
def hDen (n : Fin 1024) : EReal := ∑ m : Fin 1024, hEm x wq wk keep n m

/-- The smoothed probability of key `m` for query `n`. -/
def hProb (n m : Fin 1024) : EReal := Ideal.div (hEm x wq wk keep n m + cEpsN) (hDen x wq wk keep n + cEps)

/-- The mixture of the value rows for query `n`. -/
def hMix (n : Fin 1024) (d : Fin 64) : EReal := ∑ m : Fin 1024, hProb x wq wk keep n m * hProj x wv m d

/-- The head's contribution to output feature `o` of token `n`. -/
def hOut (n : Fin 1024) (o : Fin 768) : EReal := ∑ d : Fin 64, hMix x wq wk wv keep n d * wo d o

end Head

/-! ## The two keep factors -/

/-- By selection: a token always keeps itself; another key is kept by its policy. -/
def keepSel (pol : Fin 1024 → EReal) (n m : Fin 1024) : EReal := if n = m then cOne else pol m

/-- By arithmetic: the policy, raised to one on the diagonal by adding (1 − policy) there. -/
def keepArith (pol : Fin 1024 → EReal) (n m : Fin 1024) : EReal :=
  pol m + (cOne - pol m) * (if n = m then cOne else cZero)

/-! ## The whole block over the argument arrays -/

abbrev SX : Shape := ⟨3, ![8, 1024, 768]⟩
abbrev SP : Shape := ⟨3, ![8, 1024, 1]⟩
abbrev SW : Shape := ⟨2, ![2304, 768]⟩
abbrev SO : Shape := ⟨2, ![768, 768]⟩
abbrev SB : Shape := ⟨1, ![768]⟩

/-- Row `768·j + 64·h + d` of the stacked weight: part `j` (query, key, value), head `h`, feature `d`. -/
def wrow (j : Fin 3) (h : Fin 12) (d : Fin 64) : Fin 2304 := ⟨768 * j.val + 64 * h.val + d.val, by omega⟩

/-- Flat feature `64·h + d` of head `h`. -/
def hcol (h : Fin 12) (d : Fin 64) : Fin 768 := ⟨64 * h.val + d.val, by omega⟩

variable (X : SX.Idx → EReal) (P : SP.Idx → EReal) (W : SW.Idx → EReal) (Wo : SO.Idx → EReal) (B : SB.Idx → EReal)

/-- The token rows of batch entry `b`. -/
def xOf (b : Fin 8) : Fin 1024 → Fin 768 → EReal := fun n c => X (ix3 b n c)
/-- Part `j` of the stacked weight for head `h`. -/
def wOf (j : Fin 3) (h : Fin 12) : Fin 64 → Fin 768 → EReal := fun d c => W (ix2 (wrow j h d) c)
/-- The output weight seen from head `h`: feature `d` of the head against output feature `o`. -/
def woOf (h : Fin 12) : Fin 64 → Fin 768 → EReal := fun d o => Wo (ix2 o (hcol h d))
/-- The policy of the keys of batch entry `b`. -/
def polOf (b : Fin 8) : Fin 1024 → EReal := fun m => P (ix3 b m 0)

/-- Head `h` of batch entry `b`, with the keep factor by selection. -/
def headSel (b : Fin 8) (h : Fin 12) (n : Fin 1024) (o : Fin 768) : EReal :=
  hOut (xOf X b) (wOf W 0 h) (wOf W 1 h) (wOf W 2 h) (woOf Wo h) (keepSel (polOf P b)) n o

/-- THE RESULT, head by head with the keep factor by selection. -/
def out : SX.Idx → EReal := fun i => (∑ h : Fin 12, headSel X P W Wo (i 0) h (i 1) (i 2)) + B (ix1 (i 2))

/-- The mixtures of all heads side by side along the flat feature axis, with the keep factor by arithmetic. -/
def mixFlat (b : Fin 8) (n : Fin 1024) (c : Fin 768) : EReal :=
  hMix (xOf X b) (wOf W 0 ⟨c.val / 64, by omega⟩) (wOf W 1 ⟨c.val / 64, by omega⟩) (wOf W 2 ⟨c.val / 64, by omega⟩)
    (keepArith (polOf P b)) n ⟨c.val % 64, Nat.mod_lt _ (by decide)⟩

/-- THE RESULT, contracted over the flat feature axis with the keep factor by arithmetic. -/
def outFlat : SX.Idx → EReal := fun i => (∑ c : Fin 768, mixFlat X P W (i 0) (i 1) c * Wo (ix2 (i 2) c)) + B (ix1 (i 2))

end Cert.AttnSpec

end
-- ==== Proof.KBlock.lean ====
/-
  The kernel's staged blocks read as the plain functions the per-head specification is stated over, and one
  accumulation step: what a head adds to the running sum of head outputs of a batch entry.
-/
import proofs.«137695_j30880814859134_1_alg».proof.KernelIdeal
import proofs.«137695_j30880814859134_1_alg».proof.Proof.Spec

noncomputable section

namespace Cert.KernelIdeal.Blk

open Idealize.ShloMosaic Idealize.ShloMosaic.ValueIdx Cert.KernelIdeal Cert.AttnSpec

/-- The token rows of a staged [1, 1024, 768] block. -/
def xB (x0 : Vec Ideal S1x1024x768 .bf16) : Fin 1024 → Fin 768 → EReal := fun n c => x0 (ix3 0 n c)

/-- The rows of a staged [1, 64, 768] per-head weight block. -/
def wB (w : Vec Ideal S1x64x768 .bf16) : Fin 64 → Fin 768 → EReal := fun d c => w (ix3 0 d c)

/-- The key policies of a staged [1, 1, 1024] block. -/
def pB (x5 : Vec Ideal S1x1x1024 .f32) : Fin 1024 → EReal := fun m => x5 (ix3 0 0 m)

/-- One head's output from its staged blocks: tokens `x0`, query / key / value weights `x1 x2 x3`, the head's
    slice of the output weight `x4`, the key policies `x5`; the keep factor by selection. -/
def headB (x0 : Vec Ideal S1x1024x768 .bf16) (x1 x2 x3 x4 : Vec Ideal S1x64x768 .bf16) (x5 : Vec Ideal S1x1x1024 .f32) :
    Fin 1024 → Fin 768 → EReal :=
  hOut (xB x0) (wB x1) (wB x2) (wB x3) (wB x4) (keepSel (pB x5))

/-- One accumulation step: the running sum `acc` plus this head's output, entry by entry. -/
def stepAcc (acc : Vec Ideal S1024x768 .f32) (x0 : Vec Ideal S1x1024x768 .bf16) (x1 x2 x3 x4 : Vec Ideal S1x64x768 .bf16)
    (x5 : Vec Ideal S1x1x1024 .f32) : Vec Ideal S1024x768 .f32 :=
  fun y => acc y + headB x0 x1 x2 x3 x4 x5 (y 0) (y 1)

/-- The last step's write-back: the finished sum plus the bias row, as a [1, 1024, 768] block. -/
def finishB (acc : Vec Ideal S1024x768 .f32) (x6 : Vec Ideal S1x768 .f32) : Vec Ideal S1x1024x768 .f32 :=
  fun y => acc (ix2 (y 1) (y 2)) + x6 (ix2 0 (y 2))

end Cert.KernelIdeal.Blk

end
-- ==== Proof.KPaySmall.lean ====
/-
  The small payloads of the kernel body read at an index: the per-head projections of the token block, the
  transposed weights, the policy row, the cleared accumulator and the last step's write-back.
-/
import proofs.«137695_j30880814859134_1_alg».proof.Proof.Gen.KernelIdeal.Skeleton
import proofs.«137695_j30880814859134_1_alg».proof.Proof.KBlock
import Idealize.ShloMosaic.PureOps.Ideal.Laws
import Idealize.ShloMosaic.Lib.Pipeline.Value
import Idealize.ShloMosaic.Lib.ValueLayout

noncomputable section

namespace Cert.KernelIdeal.Pay

open Idealize.ShloMosaic Idealize.ShloMosaic.ValueIdx Cert.KernelIdeal Cert.KernelIdeal.Gen Cert.KernelIdeal.Blk Cert.AttnSpec

/-- The head's slice of the output weight, as loaded: feature `d` against output feature `o`. -/
theorem pay3_apply (x4 : Vec Ideal S1x64x768 .bf16) (d : Fin 64) (o : Fin 768) :
    k0_pay3 (F := Ideal) x4 (ix2 d o) = wB x4 d o := by
  unfold k0_pay3
  exact shapeCast_1ab_ab_apply x4 _ d o

/-- The policy row, as loaded. -/
theorem pay4_apply (x5 : Vec Ideal S1x1x1024 .f32) (mk : Fin 1024) :
    k0_pay4 (F := Ideal) x5 (ix2 0 mk) = pB x5 mk := by
  unfold k0_pay4
  exact shapeCast_1ab_ab_apply x5 _ 0 mk

/-! ## The token block times a transposed weight block

The product's dimension numbers contract the left operand's second axis with the right operand's first; the
left operand's first axis is the result's row and the right operand's second axis is the result's column. -/

/-- The left index keeps the result's row on its first axis. -/
theorem lhs_proj_0 (i : S1024x64.Idx) (q : dot_S1024x768_S768x64_S1024x64_1_0_0_1_n_n.contr.Idx) :
    (dot_S1024x768_S768x64_S1024x64_1_0_0_1_n_n.lhsIdx i q 0).val = (i 0).val := by
  unfold DotDims.lhsIdx
  rw [dif_neg (show ¬(0 : Fin S1024x768.rank) ∈ dot_S1024x768_S768x64_S1024x64_1_0_0_1_n_n.lhsBatch by decide), dif_pos (show (0 : Fin S1024x768.rank) ∈ dot_S1024x768_S768x64_S1024x64_1_0_0_1_n_n.lhsNonContracting by decide)]
  rfl

/-- The left index carries the contraction position on its second axis. -/
theorem lhs_proj_1 (i : S1024x64.Idx) (q : dot_S1024x768_S768x64_S1024x64_1_0_0_1_n_n.contr.Idx) :
    (dot_S1024x768_S768x64_S1024x64_1_0_0_1_n_n.lhsIdx i q 1).val = (q ⟨0, by decide⟩).val :=
  dot_S1024x768_S768x64_S1024x64_1_0_0_1_n_n.lhsIdx_val_of_single rfl i q

/-- The right index carries the contraction position on its first axis. -/
theorem rhs_proj_0 (i : S1024x64.Idx) (q : dot_S1024x768_S768x64_S1024x64_1_0_0_1_n_n.contr.Idx) :
    (dot_S1024x768_S768x64_S1024x64_1_0_0_1_n_n.rhsIdx i q 0).val = (q ⟨0, by decide⟩).val :=
  dot_S1024x768_S768x64_S1024x64_1_0_0_1_n_n.rhsIdx_val_of_single rfl i q

/-- The right index keeps the result's column on its second axis. -/
theorem rhs_proj_1 (i : S1024x64.Idx) (q : dot_S1024x768_S768x64_S1024x64_1_0_0_1_n_n.contr.Idx) :
    (dot_S1024x768_S768x64_S1024x64_1_0_0_1_n_n.rhsIdx i q 1).val = (i 1).val := by
  unfold DotDims.rhsIdx
  rw [dif_neg (show ¬(1 : Fin S768x64.rank) ∈ dot_S1024x768_S768x64_S1024x64_1_0_0_1_n_n.rhsBatch by decide), dif_pos (show (1 : Fin S768x64.rank) ∈ dot_S1024x768_S768x64_S1024x64_1_0_0_1_n_n.rhsNonContracting by decide)]
  rfl

/-- Into a zero accumulator the product at (n, d) is the sum over the 768 features of row `n` of the left operand
    against column `d` of the right one. -/
theorem proj_apply {φ₁ φ₂ : FTy} (l : FVec Ideal S1024x768 φ₁) (r : FVec Ideal S768x64 φ₂) (n : Fin 1024) (d : Fin 64) :
    Idealize.ShloMosaic.matmul dot_S1024x768_S768x64_S1024x64_1_0_0_1_n_n none l r (constant (F := Ideal) S1024x64 .f32 0x00000000#32) (ix2 n d)
      = ∑ c : Fin 768, l (ix2 n c) * r (ix2 c d) := by
  simp only [Idealize.ShloMosaic.matmul]
  rw [Ideal.matmul_constant_zero_apply, ← Equiv.sum_comp (contrEquiv1 dot_S1024x768_S768x64_S1024x64_1_0_0_1_n_n 768 rfl rfl).symm]
  refine Finset.sum_congr rfl fun k _ => ?_
  have hk := contrEquiv1_symm_val dot_S1024x768_S768x64_S1024x64_1_0_0_1_n_n 768 rfl rfl k
  have el : dot_S1024x768_S768x64_S1024x64_1_0_0_1_n_n.lhsIdx (ix2 n d) ((contrEquiv1 dot_S1024x768_S768x64_S1024x64_1_0_0_1_n_n 768 rfl rfl).symm k) = ix2 n k := funext fun a => Fin.ext (by
    match a with
    | ⟨0, _⟩ => exact lhs_proj_0 _ _
    | ⟨1, _⟩ => exact (lhs_proj_1 _ _).trans hk)
  have er : dot_S1024x768_S768x64_S1024x64_1_0_0_1_n_n.rhsIdx (ix2 n d) ((contrEquiv1 dot_S1024x768_S768x64_S1024x64_1_0_0_1_n_n 768 rfl rfl).symm k) = ix2 k d := funext fun a => Fin.ext (by
    match a with
    | ⟨0, _⟩ => exact (rhs_proj_0 _ _).trans hk
    | ⟨1, _⟩ => exact rhs_proj_1 _ _)
  rw [el, er]

/-- A [1, 64, 768] weight block, its unit axis dropped and then transposed, reads feature `c` against row `d`. -/
theorem wT_apply (w : Vec Ideal S1x64x768 .bf16) (c : Fin 768) (d : Fin 64) :
    transpose S768x64 [1, 0] (shapeCast S64x768 w shapeCasts_S1x64x768_S64x768) transposes_S64x768_p1_0_S768x64 (ix2 c d) = wB w d c :=
  (transpose_ix2_apply _ _ c d).trans (shapeCast_1ab_ab_apply w _ d c)

/-- The token block with its unit axis dropped. -/
theorem pay2_apply (x0 : Vec Ideal S1x1024x768 .bf16) (n : Fin 1024) (c : Fin 768) :
    k0_pay2 (F := Ideal) x0 (ix2 n c) = xB x0 n c := by
  unfold k0_pay2
  exact shapeCast_1ab_ab_apply x0 _ n c

/-- The value rows: token `mk` projected on value-weight row `d`. -/
theorem pay5_apply (x0 : Vec Ideal S1x1024x768 .bf16) (x3 : Vec Ideal S1x64x768 .bf16) (mk : Fin 1024) (d : Fin 64) :
    k0_pay5 (F := Ideal) x0 x3 (ix2 mk d) = hProj (xB x0) (wB x3) mk d := by
  unfold k0_pay5
  refine (proj_apply _ _ mk d).trans ?_
  unfold hProj
  refine Finset.sum_congr rfl fun c _ => ?_
  rw [pay2_apply]
  exact congrArg (xB x0 mk c * ·) (wT_apply x3 c d)

/-- The key rows, transposed: entry (d, mk) is token `mk` projected on key-weight row `d`. -/
theorem pay6_apply (x0 : Vec Ideal S1x1024x768 .bf16) (x2 : Vec Ideal S1x64x768 .bf16) (d : Fin 64) (mk : Fin 1024) :
    k0_pay6 (F := Ideal) x0 x2 (ix2 d mk) = hProj (xB x0) (wB x2) mk d := by
  unfold k0_pay6
  refine (transpose_ix2_apply _ _ d mk).trans ?_
  refine (proj_apply _ _ mk d).trans ?_
  unfold hProj
  refine Finset.sum_congr rfl fun c _ => ?_
  rw [pay2_apply]
  exact congrArg (xB x0 mk c * ·) (wT_apply x2 c d)

/-- The query weight, transposed. -/
theorem pay7_apply (x1 : Vec Ideal S1x64x768 .bf16) (cc : Fin 768) (d : Fin 64) :
    k0_pay7 (F := Ideal) x1 (ix2 cc d) = wB x1 d cc := by
  unfold k0_pay7
  refine (transpose_ix2_apply _ _ cc d).trans ?_
  exact shapeCast_1ab_ab_apply x1 _ d cc

/-- The cleared accumulator. -/
theorem pay8_apply (y : S1024x768.Idx) : k0_pay8 (F := Ideal) y = cZero := by
  unfold k0_pay8
  rw [shapeCast_self]
  rfl

/-- A tile stored as computed. -/
theorem pay9_eq (v : FVec Ideal S256x768 .f32) : k0_pay9 (F := Ideal) v = v := by
  unfold k0_pay9
  exact shapeCast_self v _

/-- The last step's write-back: the finished sum plus the bias row. -/
theorem pay10_eq (v27 : Vec Ideal S1x768 .f32) (v29 : Vec Ideal S1024x768 .f32) :
    k0_pay10 (F := Ideal) v27 v29 = finishB v29 v27 := by
  funext y
  obtain ⟨u, n, o, rfl⟩ : ∃ (u : Fin 1) (n : Fin 1024) (o : Fin 768), y = ix3 u n o := ⟨y 0, y 1, y 2, eq_ix3 y⟩
  unfold k0_pay10
  refine (shapeCast_ab_1ab_apply _ _ u n o).trans ?_
  rw [addf_apply]
  refine congrArg (v29 (ix2 n o) + ·) ?_
  refine (broadcastTo_1b_ab_apply _ _ n o).trans ?_
  rw [shapeCast_self]
  refine (shapeCast_a_1a_apply _ _ 0 o).trans ?_
  exact shapeCast_1a_a_apply v27 _ o

end Cert.KernelIdeal.Pay

end
-- ==== Proof.KPayload.lean ====
/-
  One tile of one head: rows 256·k … 256·k + 255 of the accumulator after the body's arithmetic are the rows as
  found plus the head's output there.

  The tile's arithmetic, row r of tile k being token n = 256·k + r:
    q r d   = (Σ_c x n c · wq d c) · 1/8
    s r m   = Σ_d q r d · (key projection of token m on d)
    M r     = max over m of s r m, from -∞
    keep    = 1 where 256·k + r = m (the comparison of a row counter shifted by the tile's first row against a
              column counter, as 32-bit words that do not wrap here), the key's policy elsewhere
    e r m   = exp (s r m − M r) · keep
    π r m   = (e r m + ε/N) / (Σ_m e r m + ε)
    a r d   = Σ_m π r m · (value projection of token m on d)
    result  = accumulator + Σ_d a r d · wo d o
  Each operation that is not pointwise is first read at an index: the four block products as sums over the
  contracted coordinate, the two row reductions as a fold of max and a sum over the row, the column forms
  [256] → [256, 1] → [256, 1024] as reading the row's entry, the two counters as the row and column numbers.
-/
import proofs.«137695_j30880814859134_1_alg».proof.Proof.KPaySmall
import Idealize.ShloMosaic.Lib.StackMember

noncomputable section

namespace Cert.KernelIdeal.Pay

open Idealize.ShloMosaic Idealize.ShloMosaic.ValueIdx Cert.KernelIdeal Cert.KernelIdeal.Gen Cert.KernelIdeal.Blk Cert.AttnSpec

/-! ## The block products -/

/-- A plain block product (m × k by k × n) into the zero accumulator, read at (a, b): the sum over the contracted
    coordinate c of the entries' products. It is the same sum the host's plain product is. -/
theorem matmul_plain_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ _ = FloatOps.dotGeneral _ prec _ A B _
  rw [Ideal.matmul_constant_zero_apply, Ideal.dotGeneral_apply]

/-- The four products of the tile contract the left operand's columns with the right operand's rows: each is the
    plain product at its extents. -/
theorem dotQ_eq : dot_S256x768_S768x64_S256x64_1_0_0_1_n_n = DotDims.plain 256 768 64 := rfl
theorem dotScore_eq : dot_S256x64_S64x1024_S256x1024_1_0_0_1_n_n = DotDims.plain 256 64 1024 := rfl
theorem dotMix_eq : dot_S256x1024_S1024x64_S256x64_1_0_0_1_n_n = DotDims.plain 256 1024 64 := rfl
theorem dotOut_eq : dot_S256x64_S64x768_S256x768_1_0_0_1_n_n = DotDims.plain 256 64 768 := rfl

/-! ## A row statistic kept as a column and spread over the row -/

section Column
variable {α : Type}

/-- A vector cast to a one-column matrix reads, at (i, u), the vector at i: both sit at row-major position i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A one-column matrix broadcast along its rows reads, at (p, c), the column's entry at p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-! ## The two row reductions -/

/-- The row maximum of a [256, 1024] block at row r: the fold of max from -∞ over the row's entries. -/
theorem rowMax_apply (src : FVec Ideal S256x1024 .f32) (hφ : FTy.f32 = FTy.f32 ∨ FTy.f32 = FTy.bf16)
    (hacc : (0xFF800000#32 : BitVec 32) = 0xFF800000#32) (r : Fin 256) :
    multiReduction (F := Ideal) .maximumf ([1] : List (Fin 2)) S256 src 0xFF800000#32 reduces_S256x1024_S256 hφ hacc (ix1 r)
      = (Finset.univ : Finset (Fin 1024)).fold max cNegInf (fun mk => src (ix2 r mk)) := by
  refine (Ideal.multiReduction_maximumf_single src 0xFF800000#32 reduces_S256x1024_S256 hφ hacc (ix1 r)).trans ?_
  have e : (src ∘ reduces_S256x1024_S256.lift (ix1 r)) = fun mk : Fin 1024 => src (ix2 r mk) :=
    funext fun mk => congrArg src (funext fun a => Fin.ext (by
      match a with
      | ⟨0, _⟩ => rfl
      | ⟨1, _⟩ => rfl))
  rw [e]
  rfl

/-- The row sum of a [256, 1024] block at row r. -/
theorem rowSum_apply (src : FVec Ideal S256x1024 .f32) (hφ : FTy.f32 = FTy.f32 ∨ FTy.f32 = FTy.bf16)
    (hacc : (0x00000000#32 : BitVec 32) = 0x00000000#32) (r : Fin 256) :
    multiReduction (F := Ideal) .add ([1] : List (Fin 2)) S256 src 0x00000000#32 reduces_S256x1024_S256 hφ hacc (ix1 r)
      = ∑ mk : Fin 1024, src (ix2 r mk) := by
  refine (Ideal.multiReduction_add_single src 0x00000000#32 reduces_S256x1024_S256 hφ hacc (ix1 r)).trans ?_
  show ∑ mk : Fin 1024, src (reduces_S256x1024_S256.lift (ix1 r) mk) = _
  refine Finset.sum_congr rfl fun mk _ => congrArg src (funext fun a => Fin.ext ?_)
  match a with
  | ⟨0, _⟩ => rfl
  | ⟨1, _⟩ => rfl

/-! ## The diagonal of the whole block seen from a tile -/

/-- The tile's first row as a 32-bit word: 0 + (0 + k·1)·1 times 256 is 256·k, and nothing wraps for k < 4. -/
theorem tileBase_eq (kk : Nat) (hk : kk < 4) :
    Scalar.muli (Scalar.addi 0#32 (Scalar.muli (Scf.iv 0#32 1#32 kk) 1#32)) 256#32 = BitVec.ofNat 32 (256 * kk) := by
  apply BitVec.eq_of_toNat_eq
  simp only [Scalar.muli, Scalar.addi, IntOp.muli, IntOp.addi, Scf.iv, BitVec.toNat_add, BitVec.toNat_mul, BitVec.toNat_ofNat]
  omega

/-- Row r of tile kk against column mk: the words r + 256·kk and mk are equal exactly when the numbers are, both
    being far below 2³². -/
theorem eyeBit_iff (kk : Nat) (hk : kk < 4) (r : Fin 256) (mk : Fin 1024) :
    IntOp.cmpi .eq (IntOp.addi (BitVec.ofNat 32 r.val) (BitVec.ofNat 32 (256 * kk))) (BitVec.ofNat 32 mk.val) = 1#1
      ↔ 256 * kk + r.val = mk.val := by
  have hc : ∀ a b : BitVec 32, IntOp.cmpi .eq a b = 1#1 ↔ a = b := fun a b => by
    show BitVec.ofBool (a == b) = 1#1 ↔ a = b
    cases hab : (a == b)
    · have hne : ¬ a = b := by simpa using hab
      exact ⟨fun h' => absurd h' (by decide), fun h' => absurd h' hne⟩
    · exact ⟨fun _ => by simpa using hab, fun _ => by decide⟩
  rw [hc, ← BitVec.toNat_inj]
  simp only [IntOp.addi, BitVec.toNat_add, BitVec.toNat_ofNat]
  have := r.isLt; have := mk.isLt
  omega

/-! ## Pointwise integer operations, the exponential and the two counters at an index -/

theorem cmpi_apply {s : Shape} {w : Nat} (p : CmpIPredicate) (x y : IVec s w) (i : s.Idx) :
    cmpi p x y i = IntOp.cmpi p (x i) (y i) := rfl

theorem addi_apply {s : Shape} {w : Nat} (x y : IVec s w) (i : s.Idx) : addi x y i = IntOp.addi (x i) (y i) := rfl

theorem exp_apply {s : Shape} {φ : FTy} (a : FVec Ideal s φ) (i : s.Idx) :
    Idealize.ShloMosaic.exp a i = Ideal.exp (a i) := rfl

/-- The row counter of a [256, 1024] block at (r, mk) is r. -/
theorem iotaRow_apply (r : Fin 256) (mk : Fin 1024) :
    iota .tc S256x1024 32 ([0] : List (Fin 2)) iota_S256x1024_d0_w32 (ix2 r mk) = BitVec.ofNat 32 r.val := by
  rw [iota_single_apply]

/-- The column counter of a [256, 1024] block at (r, mk) is mk. -/
theorem iotaCol_apply (r : Fin 256) (mk : Fin 1024) :
    iota .tc S256x1024 32 ([1] : List (Fin 2)) iota_S256x1024_d1_w32 (ix2 r mk) = BitVec.ofNat 32 mk.val := by
  rw [iota_single_apply]

/-- The keep factor of row r of tile kk (token n = 256·kk + r) against key mk: one where the token is the key, the
    key's policy elsewhere. -/
theorem keep_apply (kk : Nat) (hk : kk < 4) (n : Fin 1024) (r : Fin 256) (hn : n.val = 256 * kk + r.val) (mk : Fin 1024)
    (pol : EReal) :
    Scalar.select (IntOp.cmpi .eq (IntOp.addi (BitVec.ofNat 32 r.val)
        (Scalar.muli (Scalar.addi 0#32 (Scalar.muli (Scf.iv 0#32 1#32 kk) 1#32)) 256#32)) (BitVec.ofNat 32 mk.val)) cOne pol
      = if n = mk then cOne else pol := by
  rw [tileBase_eq kk hk]
  by_cases h : n = mk
  · rw [if_pos h, (eyeBit_iff kk hk r mk).mpr (by rw [← hn, h]), select_one]
  · have hb : ¬ IntOp.cmpi .eq (IntOp.addi (BitVec.ofNat 32 r.val) (BitVec.ofNat 32 (256 * kk))) (BitVec.ofNat 32 mk.val) = 1#1 :=
      fun hc => h (Fin.ext (hn.trans ((eyeBit_iff kk hk r mk).mp hc)))
    rw [if_neg h, eq_zero_of_ne_one hb, select_zero]

/-! ## The tile -/

/-- Row `r` of tile `k` is token `n = 256·k + r`: with the tile's token rows `v32` those of the block and the
    accumulator rows `v67` as found, the tile's result at (r, o) is `v67` there plus the head's output for
    token `n` and output feature `o`. -/
theorem pay1_apply (x0 : Vec Ideal S1x1024x768 .bf16) (x1 x2 x3 x4 : Vec Ideal S1x64x768 .bf16) (x5 : Vec Ideal S1x1x1024 .f32)
    (k : Fin k0_t1_loop.trips) (v32 : Vec Ideal S1x256x768 .bf16) (v67 : Vec Ideal S256x768 .f32)
    (n : Fin 1024) (r : Fin 256) (hn : n.val = 256 * k.val + r.val)
    (hv32 : ∀ cc : Fin 768, v32 (ix3 0 r cc) = x0 (ix3 0 n cc)) (o : Fin 768) :
    k0_pay1 (F := Ideal) (k0_pay3 x4) (k0_pay4 x5) (k0_pay5 x0 x3) (k0_pay6 x0 x2) (k0_pay7 x1) 0#32 1#32 k v32 v67 (ix2 r o)
      = v67 (ix2 r o) + headB x0 x1 x2 x3 x4 x5 n o := by
  -- the loop has at most four trips
  have hk : k.val < 4 := Nat.lt_of_lt_of_le k.isLt k0_t1_abs.2.1
  unfold k0_pay1
  -- every operation of the tile read at its index, outermost first
  simp only [addf_apply, mulf_apply, subf_apply, divf_apply, truncf_apply, exp_apply, select_apply, broadcast_apply,
    cmpi_apply, addi_apply, iotaRow_apply, iotaCol_apply, Ideal.ofBits_def,
    dotQ_eq, dotScore_eq, dotMix_eq, dotOut_eq, matmul_plain_apply, rowMax_apply, rowSum_apply,
    shapeCast_a_a1_apply, broadcastTo_a1_ab_apply, broadcastTo_1b_ab_apply, shapeCast_self, shapeCast_1ab_ab_apply]
  -- the keep factor, and the operands as the head's weights, projections and policies
  simp only [keep_apply k.val hk n r hn, pay3_apply, pay4_apply, pay5_apply, pay6_apply, pay7_apply, hv32]
  -- what is left is the head's output written out
  simp only [headB, hOut, hMix, hProb, hDen, hEm, hMax, hScore, hQ, hProj, keepSel, xB]

end Cert.KernelIdeal.Pay

end
-- ==== Proof.KCases.lean ====
/-
  What each control case of the body leaves: in the carried accumulator, the contents found (zero at a batch
  entry's first head) plus the head's output; in the output block at the last head, that sum plus the bias row.

  The body updates the accumulator tile by tile in a loop of four trips: trip k loads rows 256·k … 256·k + 255,
  adds the head's output for those tokens and stores them back. So after k trips the pieces written are k tiles,
  each holding "found + head output" on its rows, the rows from 256·k on untouched; after four trips they tile the
  accumulator.
-/
import proofs.«137695_j30880814859134_1_alg».proof.Proof.Gen.KernelIdeal.Frame
import proofs.«137695_j30880814859134_1_alg».proof.Proof.KPayload
import Idealize.ShloMosaic.Lib.Pipeline.Value

set_option maxRecDepth 16384

noncomputable section

namespace Cert.KernelIdeal.Cases

open Idealize.ShloMosaic Idealize.ShloMosaic.TcCoe Idealize.ShloMosaic.Tactic Idealize.ShloMosaic.ValueIdx Idealize.SL.Sem
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)
open Cert.KernelIdeal Cert.KernelIdeal.Gen Cert.KernelIdeal.Blk Cert.KernelIdeal.Pay Cert.AttnSpec

/-! ## One trip's piece -/

/-- Trip `k` writes ONE piece: the tile at rows 256·k …, holding the body's arithmetic on the token rows of that
    tile (as loaded from the token block) and the accumulator rows of that tile (as loaded from the contents found). -/
theorem trip_piece (𝒱 : Variants) (c : Dev nD) (bd : Option 𝒱.V) (i : grid0.Coords) (arg2 : Memref sig .tc .vmem S1x1024x768 .bf16) (harg2 : arg2.IsWhole) (arg3 : Memref sig .tc .vmem S1x64x768 .bf16) (harg3 : arg3.IsWhole) (arg4 : Memref sig .tc .vmem S1x64x768 .bf16) (harg4 : arg4.IsWhole) (arg5 : Memref sig .tc .vmem S1x64x768 .bf16) (harg5 : arg5.IsWhole) (arg6 : Memref sig .tc .vmem S1x64x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .f32) (harg10 : arg10.IsWhole) (v0 : Vec Ideal S1x1024x768 .bf16) (v2 : Vec Ideal S1x64x768 .bf16) (v4 : Vec Ideal S1x64x768 .bf16) (v6 : Vec Ideal S1x64x768 .bf16) (v8 : Vec Ideal S1x64x768 .bf16) (v10 : Vec Ideal S1x1x1024 .f32) (X_arg2 : BufTy.Contents (Elt Ideal) arg2.view.ty) (k : Fin k0_t1_loop.trips) (f_arg10 : BufTy.Contents (Elt Ideal) arg10.view.ty) :
    tripL_k0_t1 (F := Ideal) 𝒱 c bd i arg2 harg2 arg3 harg3 arg4 harg4 arg5 harg5 arg6 harg6 arg7 harg7 arg8 harg8 arg9 harg9 arg10 harg10 v0 v2 v4 v6 v8 v10 X_arg2 k f_arg10
      = [⟨Rect.unit (s := S1024x768) (k0_off2 k) S256x768.size (k0_off2_inb k),
          k0_pay9 (k0_pay1 (k0_pay3 v8) (k0_pay4 v10) (k0_pay5 v0 v6) (k0_pay6 v0 v4) (k0_pay7 v2) 0#32 1#32 k
            (View.readAt (Elt Ideal) arg2.view (Rect.unit (s := S1x1024x768) (k0_off1 k) S1x256x768.size (k0_off1_inb k)).toLoadRect X_arg2)
            (View.readAt (Elt Ideal) arg10.view (Rect.unit (s := S1024x768) (k0_off2 k) S256x768.size (k0_off2_inb k)).toLoadRect f_arg10))⟩] := by
  unfold tripL_k0_t1 trip_k0_t1
  dsimp only
  sl_unfold_words
  rfl

/-! ## Whole-block loads -/

theorem z3 : (![0, 0, 0] : Fin 3 → ℕ) = fun _ => 0 := by
  funext a; match a with | ⟨0, _⟩ => rfl | ⟨1, _⟩ => rfl | ⟨2, _⟩ => rfl

theorem z2 : (![0, 0] : Fin 2 → ℕ) = fun _ => 0 := by
  funext a; match a with | ⟨0, _⟩ => rfl | ⟨1, _⟩ => rfl

/-! ## The tile of a trip -/

/-- The rectangle trip `k` loads and stores: rows 256·k … 256·k + 255, every column. -/
abbrev tile (k : Fin k0_t1_loop.trips) : Rect S1024x768 :=
  Rect.unit (s := S1024x768) (k0_off2 k) S256x768.size (k0_off2_inb k)

theorem trips_le (k : Fin k0_t1_loop.trips) : k.val < 4 := Nat.lt_of_lt_of_le k.isLt k0_t1_abs.2.1

theorem tile_emb0 (k : Fin k0_t1_loop.trips) (x : S256x768.Idx) : ((tile k).emb x 0 : ℕ) = 256 * k.val + (x 0).val := by
  rw [Rect.emb_apply]
  show k0_off2 k 0 + 1 * (x 0).val = _
  rw [k0_off2_eq]; simp

theorem tile_emb1 (k : Fin k0_t1_loop.trips) (x : S256x768.Idx) : ((tile k).emb x 1 : ℕ) = (x 1).val := by
  rw [Rect.emb_apply]
  show k0_off2 k 1 + 1 * (x 1).val = _
  rw [k0_off2_eq]; simp

/-- An entry lies in tile `k` exactly when its row does. -/
theorem mem_tile (k : Fin k0_t1_loop.trips) (y : S1024x768.Idx) :
    y ∈ (tile k).set ↔ 256 * k.val ≤ (y 0).val ∧ (y 0).val < 256 * k.val + 256 := by
  rw [Rect.mem_set_unit]
  constructor
  · intro h
    have h0 := h 0
    rw [k0_off2_eq] at h0
    simpa using h0
  · intro h a
    rw [k0_off2_eq]
    match a with
    | ⟨0, _⟩ => simpa using h
    | ⟨1, _⟩ =>
      have := (y 1).isLt
      refine ⟨by simp, ?_⟩
      simpa using this

theorem emb_mem_tile (k : Fin k0_t1_loop.trips) (x : S256x768.Idx) : (tile k).emb x ∈ (tile k).set := by
  rw [← Rect.map_emb_univ]; exact Finset.mem_map_of_mem _ (Finset.mem_univ x)

/-! ## The pieces after k trips -/

section Loop

variable (c : Dev nD) (i : grid0.Coords) (arg2 : Memref sig .tc .vmem S1x1024x768 .bf16) (harg2 : arg2.IsWhole) (arg3 : Memref sig .tc .vmem S1x64x768 .bf16) (harg3 : arg3.IsWhole) (arg4 : Memref sig .tc .vmem S1x64x768 .bf16) (harg4 : arg4.IsWhole) (arg5 : Memref sig .tc .vmem S1x64x768 .bf16) (harg5 : arg5.IsWhole) (arg6 : Memref sig .tc .vmem S1x64x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .f32) (harg10 : arg10.IsWhole)
  (x0 : Vec Ideal S1x1024x768 .bf16) (x1 x2 x3 x4 : Vec Ideal S1x64x768 .bf16) (x5 : Vec Ideal S1x1x1024 .f32)
  (G0 : BufTy.Contents (Elt Ideal) arg10.view.ty)

/-- The payload trip `k` stores, when the contents `f` it finds agree on its tile with the contents `G0` at the
    loop's entry: on the tile's rows, what `G0` held plus the head's output. -/
theorem new_piece_val (k : Fin k0_t1_loop.trips) (f : BufTy.Contents (Elt Ideal) arg10.view.ty)
    (hf : ∀ y ∈ (tile k).set, arg10.view.read (Elt Ideal) f y = arg10.view.read (Elt Ideal) G0 y) (x : S256x768.Idx) :
    k0_pay9 (F := Ideal) (k0_pay1 (k0_pay3 x4) (k0_pay4 x5) (k0_pay5 x0 x3) (k0_pay6 x0 x2) (k0_pay7 x1) 0#32 1#32 k
        (View.readAt (Elt Ideal) arg2.view (Rect.unit (s := S1x1024x768) (k0_off1 k) S1x256x768.size (k0_off1_inb k)).toLoadRect (harg2.unread x0))
        (View.readAt (Elt Ideal) arg10.view (tile k).toLoadRect f)) x
      = stepAcc (arg10.view.read (Elt Ideal) G0) x0 x1 x2 x3 x4 x5 ((tile k).emb x) := by
  rw [pay9_eq]
  obtain ⟨r, o, rfl⟩ : ∃ (r : Fin 256) (o : Fin 768), x = ix2 r o := ⟨x 0, x 1, eq_ix2 x⟩
  have hk := trips_le k
  have he : (tile k).emb (ix2 r o) = ix2 (⟨256 * k.val + r.val, by omega⟩ : Fin 1024) o := by
    funext a
    match a with
    | ⟨0, _⟩ => exact Fin.ext (tile_emb0 k (ix2 r o))
    | ⟨1, _⟩ => exact Fin.ext (tile_emb1 k (ix2 r o))
  rw [pay1_apply x0 x1 x2 x3 x4 x5 k _ _ (⟨256 * k.val + r.val, by omega⟩ : Fin 1024) r rfl ?_ o]
  · unfold stepAcc
    rw [he]
    congr 1
    rw [View.readAt_eq_ld]
    show arg10.view.read (Elt Ideal) f ((tile k).emb (ix2 r o)) = _
    rw [hf _ (emb_mem_tile k _), he]
  · intro cc
    rw [View.readAt_eq_ld, harg2.read_unread]
    show x0 ((Rect.unit (s := S1x1024x768) (k0_off1 k) S1x256x768.size (k0_off1_inb k)).emb (ix3 0 r cc)) = _
    congr 1
    have h0 : k0_off1 k 0 = 0 := by rw [k0_off1_eq]; rfl
    have h1 : k0_off1 k 1 = 256 * k.val := by rw [k0_off1_eq]; rfl
    have h2 : k0_off1 k 2 = 0 := by rw [k0_off1_eq]; rfl
    funext a
    apply Fin.ext
    rw [Rect.emb_apply]
    match a with
    | ⟨0, _⟩ => show k0_off1 k 0 + 1 * (0 : ℕ) = 0; omega
    | ⟨1, _⟩ => show k0_off1 k 1 + 1 * r.val = 256 * k.val + r.val; omega
    | ⟨2, _⟩ => show k0_off1 k 2 + 1 * cc.val = cc.val; omega

/-- THE INVARIANT after `k` trips: every piece written so far holds, on its own entries, the contents at the loop's
    entry plus the head's output, and lies in the rows below 256·k; and every entry in those rows is in some piece. -/
theorem pieces_inv : ∀ k : ℕ, k ≤ k0_t1_loop.trips →
    (∀ p ∈ pb_k0_t1 (F := Ideal) Variants.none c none i arg2 harg2 arg3 harg3 arg4 harg4 arg5 harg5 arg6 harg6 arg7 harg7 arg8 harg8 arg9 harg9 arg10 harg10 x0 x1 x2 x3 x4 x5 (harg2.unread x0) G0 k,
        (∀ x, p.2 x = stepAcc (arg10.view.read (Elt Ideal) G0) x0 x1 x2 x3 x4 x5 (p.1.emb x))
        ∧ ∀ y ∈ p.1.set, (y 0).val < 256 * k)
    ∧ ∀ y : S1024x768.Idx, (y 0).val < 256 * k → ∃ p ∈ pb_k0_t1 (F := Ideal) Variants.none c none i arg2 harg2 arg3 harg3 arg4 harg4 arg5 harg5 arg6 harg6 arg7 harg7 arg8 harg8 arg9 harg9 arg10 harg10 x0 x1 x2 x3 x4 x5 (harg2.unread x0) G0 k, y ∈ p.1.set
  | 0, _ => ⟨fun p hp => absurd hp (by rw [pb_k0_t1.eq_1]; exact List.not_mem_nil), fun y hy => absurd hy (by omega)⟩
  | k + 1, hk => by
    obtain ⟨ihp, ihc⟩ := pieces_inv k (Nat.le_of_succ_le hk)
    have e := pb_k0_t1_succ (F := Ideal) Variants.none c none i arg2 harg2 arg3 harg3 arg4 harg4 arg5 harg5 arg6 harg6 arg7 harg7 arg8 harg8 arg9 harg9 arg10 harg10 x0 x1 x2 x3 x4 x5 (harg2.unread x0) G0 (⟨k, hk⟩ : Fin k0_t1_loop.trips)
    rw [trip_piece] at e
    dsimp only at e
    rw [e]
    -- what trip k finds on its tile is what the loop found there: the earlier pieces lie in lower rows
    have hfind : ∀ y ∈ (tile ⟨k, hk⟩).set,
        arg10.view.read (Elt Ideal) (arg10.view.writes (Elt Ideal) G0 (pb_k0_t1 (F := Ideal) Variants.none c none i arg2 harg2 arg3 harg3 arg4 harg4 arg5 harg5 arg6 harg6 arg7 harg7 arg8 harg8 arg9 harg9 arg10 harg10 x0 x1 x2 x3 x4 x5 (harg2.unread x0) G0 k)) y = arg10.view.read (Elt Ideal) G0 y := by
      intro y hy
      refine View.read_writes_apply_of_forall_not_mem _ _ y _ (fun p hp hm => ?_)
      have h1 := (ihp p hp).2 y hm
      have h2 := ((mem_tile ⟨k, hk⟩ y).mp hy).1
      dsimp only at h2
      omega
    refine ⟨fun p hp => ?_, fun y hy => ?_⟩
    · rcases List.mem_append.mp hp with hp | hp
      · obtain rfl := List.mem_singleton.mp hp
        refine ⟨fun x => new_piece_val arg2 harg2 arg10 x0 x1 x2 x3 x4 x5 G0 ⟨k, hk⟩ _ hfind x, fun y hy => ?_⟩
        have := ((mem_tile ⟨k, hk⟩ y).mp hy).2
        dsimp only at this
        omega
      · exact ⟨(ihp p hp).1, fun y hy => by have := (ihp p hp).2 y hy; omega⟩
    · by_cases hlt : (y 0).val < 256 * k
      · obtain ⟨p, hp, hm⟩ := ihc y hlt
        exact ⟨p, List.mem_append_right _ hp, hm⟩
      · refine ⟨_, List.mem_append_left _ (List.mem_singleton_self _), ?_⟩
        refine (mem_tile ⟨k, hk⟩ y).mpr ⟨?_, ?_⟩
        · dsimp only; omega
        · dsimp only; omega

end Loop

/-! ## After the loop -/

theorem trips4 : k0_t1_loop.trips = 4 := by decide

/-- A load of a whole block holding `x` reads `x`. -/
theorem load_whole {S : Shape} {e : EltTy} (M : Memref sig .tc .vmem S e) (hM : M.IsWhole) {off : Fin S.rank → ℕ}
    (hz : off = fun _ => 0) (inb : ∀ a, off a + S.size a ≤ S.size a) (x : S.Idx → Elt Ideal e) :
    View.readAt (Elt Ideal) M.view (Rect.unit off S.size inb).toLoadRect (hM.unread x) = x := by
  rw [View.readAt_eq_ld, hM.read_unread, View.ld_unit_zero hz]

/-- One store of a whole block reads back as its payload, whatever was there before. -/
theorem read_write_whole {κ : Kind} {sp : Space} {S : Shape} {e : EltTy} (v : View sig κ sp S e) (f : v.ty.Contents (Elt Ideal))
    {off : Fin S.rank → ℕ} (hz : off = fun _ => 0) (inb : ∀ a, off a + S.size a ≤ S.size a) (w : S.Idx → Elt Ideal e) :
    v.read (Elt Ideal) (v.writes (Elt Ideal) f [(⟨Rect.unit off S.size inb, w⟩ : View.Piece (Elt Ideal) S e)]) = w := by
  rw [View.read_writes_eq_canon v f _ (fun y =>
      ⟨(⟨Rect.unit off S.size inb, w⟩ : View.Piece (Elt Ideal) S e), List.mem_singleton_self _, View.mem_set_unit_zero hz inb y⟩),
    View.canon_unit_zero hz inb]

section After

variable (c : Dev nD) (i : grid0.Coords) (arg2 : Memref sig .tc .vmem S1x1024x768 .bf16) (harg2 : arg2.IsWhole) (arg3 : Memref sig .tc .vmem S1x64x768 .bf16) (harg3 : arg3.IsWhole) (arg4 : Memref sig .tc .vmem S1x64x768 .bf16) (harg4 : arg4.IsWhole) (arg5 : Memref sig .tc .vmem S1x64x768 .bf16) (harg5 : arg5.IsWhole) (arg6 : Memref sig .tc .vmem S1x64x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .f32) (harg10 : arg10.IsWhole)
  (x0 : Vec Ideal S1x1024x768 .bf16) (x1 x2 x3 x4 : Vec Ideal S1x64x768 .bf16) (x5 : Vec Ideal S1x1x1024 .f32)
  (G0 : BufTy.Contents (Elt Ideal) arg10.view.ty)

/-- After the four trips, read through any view over any earlier contents: the four tiles cover the accumulator, so
    every entry is what the loop found there plus the head's output. -/
theorem loop_read {κ : Kind} {sp : Space} (v : View sig κ sp S1024x768 .f32) (f : v.ty.Contents (Elt Ideal)) (y : S1024x768.Idx) :
    v.read (Elt Ideal) (v.writes (Elt Ideal) f (pb_k0_t1 (F := Ideal) Variants.none c none i arg2 harg2 arg3 harg3 arg4 harg4 arg5 harg5 arg6 harg6 arg7 harg7 arg8 harg8 arg9 harg9 arg10 harg10 x0 x1 x2 x3 x4 x5 (harg2.unread x0) G0 k0_t1_loop.trips)) y
      = stepAcc (arg10.view.read (Elt Ideal) G0) x0 x1 x2 x3 x4 x5 y := by
  obtain ⟨hp, hc⟩ := pieces_inv c i arg2 harg2 arg3 harg3 arg4 harg4 arg5 harg5 arg6 harg6 arg7 harg7 arg8 harg8 arg9 harg9 arg10 harg10 x0 x1 x2 x3 x4 x5 G0 k0_t1_loop.trips le_rfl
  have hy : (y 0).val < 1024 := (y 0).isLt
  exact View.read_writes_apply_of_pieces v f _ _ (fun p hp' x => (hp p hp').1 x) y (hc y (by rw [trips4]; omega))

end After

/-! ## The three cases -/

/-- A middle head: the head's output is added to what the head before left. -/
theorem sout_B (c : Dev nD) (i : grid0.Coords) (arg2 : Memref sig .tc .vmem S1x1024x768 .bf16) (harg2 : arg2.IsWhole) (arg3 : Memref sig .tc .vmem S1x64x768 .bf16) (harg3 : arg3.IsWhole) (arg4 : Memref sig .tc .vmem S1x64x768 .bf16) (harg4 : arg4.IsWhole) (arg5 : Memref sig .tc .vmem S1x64x768 .bf16) (harg5 : arg5.IsWhole) (arg6 : Memref sig .tc .vmem S1x64x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .f32) (harg10 : arg10.IsWhole) (hc0 : ¬cond0_0 i) (hc1 : ¬cond0_1 i)     (x0 : Vec Ideal S1x1024x768 .bf16) (x1 : Vec Ideal S1x64x768 .bf16) (x2 : Vec Ideal S1x64x768 .bf16) (x3 : Vec Ideal S1x64x768 .bf16) (x4 : Vec Ideal S1x64x768 .bf16) (x5 : Vec Ideal S1x1x1024 .f32) (x6 : Vec Ideal S1x768 .f32) (xs0 : Vec Ideal S1024x768 .f32) :
    sout0_B_0 (F := Ideal) c i arg2 harg2 arg3 harg3 arg4 harg4 arg5 harg5 arg6 harg6 arg7 harg7 arg8 harg8 arg9 harg9 arg10 harg10 hc0 hc1 x0 x1 x2 x3 x4 x5 x6 xs0 = stepAcc xs0 x0 x1 x2 x3 x4 x5 := by
  funext y
  unfold sout0_B_0
  have hL : (kernelRun0_B (F := Ideal) c i arg2 harg2 arg3 harg3 arg4 harg4 arg5 harg5 arg6 harg6 arg7 harg7 arg8 harg8 arg9 harg9 arg10 harg10 hc0 hc1 x0 x1 x2 x3 x4 x5 x6 xs0).2.1 = pb_k0_t1 (F := Ideal) Variants.none c none i arg2 harg2 arg3 harg3 arg4 harg4 arg5 harg5 arg6 harg6 arg7 harg7 arg8 harg8 arg9 harg9 arg10 harg10 x0 x1 x2 x3 x4 x5 (harg2.unread x0) (harg10.unread xs0) k0_t1_loop.trips := by
    unfold kernelRun0_B; dsimp only
    rw [load_whole arg2 harg2 z3, load_whole arg3 harg3 z3, load_whole arg4 harg4 z3, load_whole arg5 harg5 z3, load_whole arg6 harg6 z3, load_whole arg7 harg7 z3]
  rw [hL, loop_read, harg10.read_unread]

/-- The last head: the same for the accumulator, -/
theorem sout_C (c : Dev nD) (i : grid0.Coords) (arg2 : Memref sig .tc .vmem S1x1024x768 .bf16) (harg2 : arg2.IsWhole) (arg3 : Memref sig .tc .vmem S1x64x768 .bf16) (harg3 : arg3.IsWhole) (arg4 : Memref sig .tc .vmem S1x64x768 .bf16) (harg4 : arg4.IsWhole) (arg5 : Memref sig .tc .vmem S1x64x768 .bf16) (harg5 : arg5.IsWhole) (arg6 : Memref sig .tc .vmem S1x64x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .f32) (harg10 : arg10.IsWhole) (hc0 : ¬cond0_0 i) (hc1 : cond0_1 i)     (x0 : Vec Ideal S1x1024x768 .bf16) (x1 : Vec Ideal S1x64x768 .bf16) (x2 : Vec Ideal S1x64x768 .bf16) (x3 : Vec Ideal S1x64x768 .bf16) (x4 : Vec Ideal S1x64x768 .bf16) (x5 : Vec Ideal S1x1x1024 .f32) (x6 : Vec Ideal S1x768 .f32) (xs0 : Vec Ideal S1024x768 .f32) :
    sout0_C_0 (F := Ideal) c i arg2 harg2 arg3 harg3 arg4 harg4 arg5 harg5 arg6 harg6 arg7 harg7 arg8 harg8 arg9 harg9 arg10 harg10 hc0 hc1 x0 x1 x2 x3 x4 x5 x6 xs0 = stepAcc xs0 x0 x1 x2 x3 x4 x5 := by
  funext y
  unfold sout0_C_0
  have hL : (kernelRun0_C (F := Ideal) c i arg2 harg2 arg3 harg3 arg4 harg4 arg5 harg5 arg6 harg6 arg7 harg7 arg8 harg8 arg9 harg9 arg10 harg10 hc0 hc1 x0 x1 x2 x3 x4 x5 x6 xs0).2.1 = pb_k0_t1 (F := Ideal) Variants.none c none i arg2 harg2 arg3 harg3 arg4 harg4 arg5 harg5 arg6 harg6 arg7 harg7 arg8 harg8 arg9 harg9 arg10 harg10 x0 x1 x2 x3 x4 x5 (harg2.unread x0) (harg10.unread xs0) k0_t1_loop.trips := by
    unfold kernelRun0_C; dsimp only
    rw [load_whole arg2 harg2 z3, load_whole arg3 harg3 z3, load_whole arg4 harg4 z3, load_whole arg5 harg5 z3, load_whole arg6 harg6 z3, load_whole arg7 harg7 z3]
  rw [hL, loop_read, harg10.read_unread]

/-- and the output block gets the finished sum plus the bias row. -/
theorem out_C (c : Dev nD) (i : grid0.Coords) (arg2 : Memref sig .tc .vmem S1x1024x768 .bf16) (harg2 : arg2.IsWhole) (arg3 : Memref sig .tc .vmem S1x64x768 .bf16) (harg3 : arg3.IsWhole) (arg4 : Memref sig .tc .vmem S1x64x768 .bf16) (harg4 : arg4.IsWhole) (arg5 : Memref sig .tc .vmem S1x64x768 .bf16) (harg5 : arg5.IsWhole) (arg6 : Memref sig .tc .vmem S1x64x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .f32) (harg10 : arg10.IsWhole) (hc0 : ¬cond0_0 i) (hc1 : cond0_1 i)     (x0 : Vec Ideal S1x1024x768 .bf16) (x1 : Vec Ideal S1x64x768 .bf16) (x2 : Vec Ideal S1x64x768 .bf16) (x3 : Vec Ideal S1x64x768 .bf16) (x4 : Vec Ideal S1x64x768 .bf16) (x5 : Vec Ideal S1x1x1024 .f32) (x6 : Vec Ideal S1x768 .f32) (xs0 : Vec Ideal S1024x768 .f32) :
    out0_C_7 (F := Ideal) c i arg2 harg2 arg3 harg3 arg4 harg4 arg5 harg5 arg6 harg6 arg7 harg7 arg8 harg8 arg9 harg9 arg10 harg10 hc0 hc1 x0 x1 x2 x3 x4 x5 x6 xs0 = finishB (stepAcc xs0 x0 x1 x2 x3 x4 x5) x6 := by
  unfold out0_C_7
  have hL : (kernelRun0_C (F := Ideal) c i arg2 harg2 arg3 harg3 arg4 harg4 arg5 harg5 arg6 harg6 arg7 harg7 arg8 harg8 arg9 harg9 arg10 harg10 hc0 hc1 x0 x1 x2 x3 x4 x5 x6 xs0).1
      = [⟨Rect.unit (s := S1x1024x768) ![0, 0, 0] S1x1024x768.size inb_S1x1024x768_S1x1024x768_0_0_0,
          k0_pay10 (F := Ideal) x6 (arg10.view.read (Elt Ideal) (arg10.view.writes (Elt Ideal) (harg10.unread xs0) (pb_k0_t1 (F := Ideal) Variants.none c none i arg2 harg2 arg3 harg3 arg4 harg4 arg5 harg5 arg6 harg6 arg7 harg7 arg8 harg8 arg9 harg9 arg10 harg10 x0 x1 x2 x3 x4 x5 (harg2.unread x0) (harg10.unread xs0) k0_t1_loop.trips)))⟩] := by
    unfold kernelRun0_C; dsimp only; sl_unfold_words
    rw [load_whole arg2 harg2 z3, load_whole arg3 harg3 z3, load_whole arg4 harg4 z3, load_whole arg5 harg5 z3, load_whole arg6 harg6 z3, load_whole arg7 harg7 z3, load_whole arg8 harg8 z2, View.readAt_eq_ld, View.ld_unit_zero z2]
  rw [hL, read_write_whole VO0_7 VO0_7.junk z3 inb_S1x1024x768_S1x1024x768_0_0_0, pay10_eq]
  funext y
  unfold finishB
  rw [loop_read, harg10.read_unread]

/-- First head of a batch entry: the accumulator is cleared, then the head's output is added. -/
theorem sout_A (c : Dev nD) (i : grid0.Coords) (arg2 : Memref sig .tc .vmem S1x1024x768 .bf16) (harg2 : arg2.IsWhole) (arg3 : Memref sig .tc .vmem S1x64x768 .bf16) (harg3 : arg3.IsWhole) (arg4 : Memref sig .tc .vmem S1x64x768 .bf16) (harg4 : arg4.IsWhole) (arg5 : Memref sig .tc .vmem S1x64x768 .bf16) (harg5 : arg5.IsWhole) (arg6 : Memref sig .tc .vmem S1x64x768 .bf16) (harg6 : arg6.IsWhole) (arg7 : Memref sig .tc .vmem S1x1x1024 .f32) (harg7 : arg7.IsWhole) (arg8 : Memref sig .tc .vmem S1x768 .f32) (harg8 : arg8.IsWhole) (arg9 : Memref sig .tc .vmem S1x1024x768 .f32) (harg9 : arg9.IsWhole) (arg10 : Memref sig .tc .vmem S1024x768 .f32) (harg10 : arg10.IsWhole) (hc0 : cond0_0 i) (hc1 : ¬cond0_1 i)     (x0 : Vec Ideal S1x1024x768 .bf16) (x1 : Vec Ideal S1x64x768 .bf16) (x2 : Vec Ideal S1x64x768 .bf16) (x3 : Vec Ideal S1x64x768 .bf16) (x4 : Vec Ideal S1x64x768 .bf16) (x5 : Vec Ideal S1x1x1024 .f32) (x6 : Vec Ideal S1x768 .f32) :
    sout0_A_0 (F := Ideal) c i arg2 harg2 arg3 harg3 arg4 harg4 arg5 harg5 arg6 harg6 arg7 harg7 arg8 harg8 arg9 harg9 arg10 harg10 hc0 hc1 x0 x1 x2 x3 x4 x5 x6 = stepAcc (fun _ => cZero) x0 x1 x2 x3 x4 x5 := by
  funext y
  unfold sout0_A_0
  have hL : (kernelRun0_A (F := Ideal) c i arg2 harg2 arg3 harg3 arg4 harg4 arg5 harg5 arg6 harg6 arg7 harg7 arg8 harg8 arg9 harg9 arg10 harg10 hc0 hc1 x0 x1 x2 x3 x4 x5 x6).2.1
      = pb_k0_t1 (F := Ideal) Variants.none c none i arg2 harg2 arg3 harg3 arg4 harg4 arg5 harg5 arg6 harg6 arg7 harg7 arg8 harg8 arg9 harg9 arg10 harg10 x0 x1 x2 x3 x4 x5 (harg2.unread x0) (arg10.view.writes (Elt Ideal) arg10.view.junk [⟨Rect.unit (s := S1024x768) ![0, 0] S1024x768.size inb_S1024x768_S1024x768_0_0, k0_pay8 (F := Ideal)⟩]) k0_t1_loop.trips
        ++ [⟨Rect.unit (s := S1024x768) ![0, 0] S1024x768.size inb_S1024x768_S1024x768_0_0, k0_pay8 (F := Ideal)⟩] := by
    unfold kernelRun0_A; dsimp only; sl_unfold_words
    rw [load_whole arg2 harg2 z3, load_whole arg3 harg3 z3, load_whole arg4 harg4 z3, load_whole arg5 harg5 z3, load_whole arg6 harg6 z3, load_whole arg7 harg7 z3]
  rw [hL, View.writes_append, loop_read]
  have hz : arg10.view.read (Elt Ideal) (arg10.view.writes (Elt Ideal) arg10.view.junk
      [⟨Rect.unit (s := S1024x768) ![0, 0] S1024x768.size inb_S1024x768_S1024x768_0_0, k0_pay8 (F := Ideal)⟩]) = fun _ => cZero := by
    rw [read_write_whole arg10.view arg10.view.junk z2 inb_S1024x768_S1024x768_0_0]
    funext y'; exact pay8_apply y'
  rw [hz]

end Cert.KernelIdeal.Cases

end
-- ==== Proof.KInputs.lean ====
/-
  The staged input blocks at grid point t = 12·b + h, as functions of the five argument arrays: the token rows
  and key policies of batch entry b, the query / key / value weight rows and the output-weight slice of head h,
  and the bias row.
-/
import proofs.«137695_j30880814859134_1_alg».proof.Proof.Gen.KernelIdeal.Frame
import proofs.«137695_j30880814859134_1_alg».proof.Proof.KBlock
import Idealize.ShloMosaic.Lib.Pipeline.Value
import Idealize.ShloMosaic.Lib.ValueLayout
import Idealize.ShloMosaic.Lib.StableHlo.Run

set_option maxRecDepth 16384

noncomputable section

namespace Cert.KernelIdeal.Inputs

open Idealize.ShloMosaic Idealize.ShloMosaic.TcCoe Idealize.ShloMosaic.ValueIdx Idealize.SL.Sem
open Cert.KernelIdeal Cert.KernelIdeal.Gen Cert.KernelIdeal.Blk Cert.AttnSpec

variable (m : (ℓ : Loc nD τ sig) → Buf (Elt Ideal) ℓ)

/-- The batch entry of grid point `t`. -/
def bOf (t : Fin cfg0.N) : Fin 8 := ⟨t.val / 12, by have h := t.isLt; have hN : cfg0.N = 96 := N_0; omega⟩
/-- The head of grid point `t`. -/
def hOf (t : Fin cfg0.N) : Fin 12 := ⟨t.val % 12, Nat.mod_lt _ (by decide)⟩

/-! ## The staged arrays as the host operations leave them -/

theorem arr_v12 (c : Dev nD) :
    (V m c main_v12 : S8x1024x768.Idx → EReal) = (m ((c : Thread nD τ).loc main_arg0) : S8x1024x768.Idx → EReal) := by
  dsimp only [Gen.V, Gen.hostOps0]; after_results; rfl

theorem arr_v2 (c : Dev nD) :
    (V m c main_v2 : S12x64x768.Idx → EReal)
      = shapeCast S12x64x768 (extractStridedSlice S768x768 ![0, 0] (m ((c : Thread nD τ).loc main_arg2) : S2304x768.Idx → EReal)
          slices_S2304x768_S768x768_0_0) shapeCasts_S768x768_S12x64x768 := by
  dsimp only [Gen.V, Gen.hostOps0]; after_results; rfl

theorem arr_v5 (c : Dev nD) :
    (V m c main_v5 : S12x64x768.Idx → EReal)
      = shapeCast S12x64x768 (extractStridedSlice S768x768 ![768, 0] (m ((c : Thread nD τ).loc main_arg2) : S2304x768.Idx → EReal)
          slices_S2304x768_S768x768_768_0) shapeCasts_S768x768_S12x64x768 := by
  dsimp only [Gen.V, Gen.hostOps0]; after_results; rfl

theorem arr_v8 (c : Dev nD) :
    (V m c main_v8 : S12x64x768.Idx → EReal)
      = shapeCast S12x64x768 (extractStridedSlice S768x768 ![1536, 0] (m ((c : Thread nD τ).loc main_arg2) : S2304x768.Idx → EReal)
          slices_S2304x768_S768x768_1536_0) shapeCasts_S768x768_S12x64x768 := by
  dsimp only [Gen.V, Gen.hostOps0]; after_results; rfl

theorem arr_v11 (c : Dev nD) :
    (V m c main_v11 : S12x64x768.Idx → EReal)
      = shapeCast S12x64x768 (transpose S768x768 [1, 0] (m ((c : Thread nD τ).loc main_arg3) : S768x768.Idx → EReal)
          transposes_S768x768_S768x768_1_0) shapeCasts_S768x768_S12x64x768 := by
  dsimp only [Gen.V, Gen.hostOps0]; after_results; rfl

theorem arr_v14 (c : Dev nD) :
    (V m c main_v14 : S8x1x1024.Idx → EReal)
      = shapeCast S8x1x1024 (shapeCast S8x1024 (m ((c : Thread nD τ).loc main_arg1) : S8x1024x1.Idx → EReal)
          shapeCasts_S8x1024x1_S8x1024) shapeCasts_S8x1024_S8x1x1024 := by
  dsimp only [Gen.V, Gen.hostOps0]; after_results; rfl

theorem arr_v15 (c : Dev nD) :
    (V m c main_v15 : S1x768.Idx → EReal)
      = shapeCast S1x768 (m ((c : Thread nD τ).loc main_arg4) : S768.Idx → EReal) shapeCasts_S768_S1x768 := by
  dsimp only [Gen.V, Gen.hostOps0]; after_results; rfl

/-! ## The host operations' layouts read at an index -/

/-- Rows `r … r + 767` of the stacked weight cut out and split into twelve heads of 64 rows: head `h`, row `d` of
    the result is row `r + 64·h + d` of the stack. -/
theorem slice_heads_at (W : S2304x768.Idx → EReal) (r : Nat) (hs : S2304x768.Slices ![r, 0] S768x768)
    (hc : S768x768.ShapeCasts S12x64x768) (k : S12x64x768.Idx) (h : Fin 12) (d : Fin 64) (cc : Fin 768) (row : Fin 2304)
    (hk0 : (k 0).val = h.val) (hk1 : (k 1).val = d.val) (hk2 : (k 2).val = cc.val) (hrow : row.val = r + 64 * h.val + d.val) :
    shapeCast S12x64x768 (extractStridedSlice S768x768 ![r, 0] W hs) hc k = W (ix2 row cc) := by
  have hh := h.isLt
  have hd := d.isLt
  refine (shapeCast_apply _ _ k (ix2 (⟨64 * h.val + d.val, by omega⟩ : Fin 768) cc)
    (by rw [Shape.rowMajor_val_two, Shape.rowMajor_val_three]
        show (64 * h.val + d.val) * 768 + cc.val = ((k 0).val * 64 + (k 1).val) * 768 + (k 2).val
        rw [hk0, hk1, hk2]; omega)).trans ?_
  exact extractStridedSlice_apply _ _ _ _ (ix2 row cc) (fun a => match a with
    | ⟨0, _⟩ => by show row.val = r + (64 * h.val + d.val); omega
    | ⟨1, _⟩ => by show cc.val = 0 + cc.val; omega)

/-- The output weight transposed and split into twelve heads of 64 rows: head `h`, row `d`, column `o` of the
    result is row `o`, column `64·h + d` of the weight. -/
theorem transpose_heads_at (Wo : S768x768.Idx → EReal) (ht : S768x768.Transposes [1, 0] S768x768)
    (hc : S768x768.ShapeCasts S12x64x768) (k : S12x64x768.Idx) (h : Fin 12) (d : Fin 64) (o : Fin 768) (col : Fin 768)
    (hk0 : (k 0).val = h.val) (hk1 : (k 1).val = d.val) (hk2 : (k 2).val = o.val) (hcol : col.val = 64 * h.val + d.val) :
    shapeCast S12x64x768 (transpose S768x768 [1, 0] Wo ht) hc k = Wo (ix2 o col) := by
  have hh := h.isLt
  have hd := d.isLt
  refine (shapeCast_apply _ _ k (ix2 col o)
    (by rw [Shape.rowMajor_val_two, Shape.rowMajor_val_three]
        show col.val * 768 + o.val = ((k 0).val * 64 + (k 1).val) * 768 + (k 2).val
        rw [hk0, hk1, hk2, hcol]; omega)).trans ?_
  exact transpose_apply _ _ _ _ (ix2 o col) (fun b => match b with | ⟨0, _⟩ => rfl | ⟨1, _⟩ => rfl)

/-- The policy with its unit axis moved from last to middle: entry `(b, 0, n)` of the result is entry `(b, n, 0)`. -/
theorem policy_at (P : S8x1024x1.Idx → EReal) (h1 : S8x1024x1.ShapeCasts S8x1024) (h2 : S8x1024.ShapeCasts S8x1x1024)
    (k : S8x1x1024.Idx) (b : Fin 8) (n : Fin 1024) (hk0 : (k 0).val = b.val) (hk2 : (k 2).val = n.val) :
    shapeCast S8x1x1024 (shapeCast S8x1024 P h1) h2 k = P (ix3 b n 0) := by
  have hk1 : (k 1).val < 1 := (k 1).isLt
  refine (shapeCast_apply _ _ k (ix2 b n)
    (by rw [Shape.rowMajor_val_two, Shape.rowMajor_val_three]
        show b.val * 1024 + n.val = ((k 0).val * 1 + (k 1).val) * 1024 + (k 2).val
        rw [hk0, hk2]; omega)).trans ?_
  exact shapeCast_apply _ _ _ (ix3 b n 0)
    (by rw [Shape.rowMajor_val_three, Shape.rowMajor_val_two]
        show (b.val * 1024 + n.val) * 1 + 0 = b.val * 1024 + n.val
        omega)

/-- The bias as a one-row matrix: entry `(0, o)` is entry `o`. -/
theorem bias_at (B : S768.Idx → EReal) (hc : S768.ShapeCasts S1x768) (k : S1x768.Idx) (o : Fin 768) (hk1 : (k 1).val = o.val) :
    shapeCast S1x768 B hc k = B (ix1 o) := by
  have hk0 : (k 0).val < 1 := (k 0).isLt
  exact shapeCast_apply _ _ k (ix1 o)
    (by rw [Shape.rowMajor_val_one, Shape.rowMajor_val_two]
        show o.val = (k 0).val * 768 + (k 1).val
        rw [hk1]; omega)

/-! ## The printed index maps over the grid -/

/-- Windows 0 and 5 follow the batch entry; windows 1 to 4 follow the head; window 6 stays. Decided at the 96 points. -/
theorem idx_facts : ∀ t : Fin cfg0.N,
    (win0_0.index t (0 : Fin 3) = t.val / 12 ∧ win0_0.index t (1 : Fin 3) = 0 ∧ win0_0.index t (2 : Fin 3) = 0)
    ∧ (win0_1.index t (0 : Fin 3) = t.val % 12 ∧ win0_1.index t (1 : Fin 3) = 0 ∧ win0_1.index t (2 : Fin 3) = 0)
    ∧ (win0_2.index t (0 : Fin 3) = t.val % 12 ∧ win0_2.index t (1 : Fin 3) = 0 ∧ win0_2.index t (2 : Fin 3) = 0)
    ∧ (win0_3.index t (0 : Fin 3) = t.val % 12 ∧ win0_3.index t (1 : Fin 3) = 0 ∧ win0_3.index t (2 : Fin 3) = 0)
    ∧ (win0_4.index t (0 : Fin 3) = t.val % 12 ∧ win0_4.index t (1 : Fin 3) = 0 ∧ win0_4.index t (2 : Fin 3) = 0)
    ∧ (win0_5.index t (0 : Fin 3) = t.val / 12 ∧ win0_5.index t (1 : Fin 3) = 0 ∧ win0_5.index t (2 : Fin 3) = 0)
    ∧ (win0_6.index t (0 : Fin 2) = 0 ∧ win0_6.index t (1 : Fin 2) = 0) :=
  (by decide +kernel : ∀ t : Fin grid0.N, _)

/-! ## The blocks -/

theorem x_blk (c : Dev nD) (t : Fin cfg0.N) :
    xB (iblk m c 0 t) = xOf (m ((c : Thread nD τ).loc main_arg0)) (bOf t) := by
  obtain ⟨⟨e0, e1, e2⟩, -⟩ := idx_facts t
  funext n cc
  show (V m c main_v12 : S8x1024x768.Idx → EReal) (((cfg0.win 0).blk t).view.emb (ix3 0 n cc))
    = (m ((c : Thread nD τ).loc main_arg0) : S8x1024x768.Idx → EReal) (ix3 (bOf t) n cc)
  rw [arr_v12]
  refine congrArg _ (funext fun a => Fin.ext ?_)
  match a with
  | ⟨0, _⟩ => show win0_0.index t (0 : Fin 3) * 1 + 1 * 0 = t.val / 12; omega
  | ⟨1, _⟩ => show win0_0.index t (1 : Fin 3) * 1024 + 1 * n.val = n.val; omega
  | ⟨2, _⟩ => show win0_0.index t (2 : Fin 3) * 768 + 1 * cc.val = cc.val; omega

theorem wq_blk (c : Dev nD) (t : Fin cfg0.N) :
    wB (iblk m c 1 t) = wOf (m ((c : Thread nD τ).loc main_arg2)) 0 (hOf t) := by
  obtain ⟨-, ⟨e0, e1, e2⟩, -⟩ := idx_facts t
  funext d cc
  show (V m c main_v2 : S12x64x768.Idx → EReal) (((cfg0.win 1).blk t).view.emb (ix3 0 d cc))
    = (m ((c : Thread nD τ).loc main_arg2) : S2304x768.Idx → EReal) (ix2 (wrow 0 (hOf t) d) cc)
  rw [arr_v2]
  refine slice_heads_at _ 0 _ _ _ (hOf t) d cc (wrow 0 (hOf t) d) ?_ ?_ ?_ ?_
  · show win0_1.index t (0 : Fin 3) * 1 + 1 * 0 = t.val % 12; omega
  · show win0_1.index t (1 : Fin 3) * 64 + 1 * d.val = d.val; omega
  · show win0_1.index t (2 : Fin 3) * 768 + 1 * cc.val = cc.val; omega
  · show 768 * 0 + 64 * (t.val % 12) + d.val = 0 + 64 * (t.val % 12) + d.val; omega

theorem wk_blk (c : Dev nD) (t : Fin cfg0.N) :
    wB (iblk m c 2 t) = wOf (m ((c : Thread nD τ).loc main_arg2)) 1 (hOf t) := by
  obtain ⟨-, -, ⟨e0, e1, e2⟩, -⟩ := idx_facts t
  funext d cc
  show (V m c main_v5 : S12x64x768.Idx → EReal) (((cfg0.win 2).blk t).view.emb (ix3 0 d cc))
    = (m ((c : Thread nD τ).loc main_arg2) : S2304x768.Idx → EReal) (ix2 (wrow 1 (hOf t) d) cc)
  rw [arr_v5]
  refine slice_heads_at _ 768 _ _ _ (hOf t) d cc (wrow 1 (hOf t) d) ?_ ?_ ?_ ?_
  · show win0_2.index t (0 : Fin 3) * 1 + 1 * 0 = t.val % 12; omega
  · show win0_2.index t (1 : Fin 3) * 64 + 1 * d.val = d.val; omega
  · show win0_2.index t (2 : Fin 3) * 768 + 1 * cc.val = cc.val; omega
  · show 768 * 1 + 64 * (t.val % 12) + d.val = 768 + 64 * (t.val % 12) + d.val; omega

theorem wv_blk (c : Dev nD) (t : Fin cfg0.N) :
    wB (iblk m c 3 t) = wOf (m ((c : Thread nD τ).loc main_arg2)) 2 (hOf t) := by
  obtain ⟨-, -, -, ⟨e0, e1, e2⟩, -⟩ := idx_facts t
  funext d cc
  show (V m c main_v8 : S12x64x768.Idx → EReal) (((cfg0.win 3).blk t).view.emb (ix3 0 d cc))
    = (m ((c : Thread nD τ).loc main_arg2) : S2304x768.Idx → EReal) (ix2 (wrow 2 (hOf t) d) cc)
  rw [arr_v8]
  refine slice_heads_at _ 1536 _ _ _ (hOf t) d cc (wrow 2 (hOf t) d) ?_ ?_ ?_ ?_
  · show win0_3.index t (0 : Fin 3) * 1 + 1 * 0 = t.val % 12; omega
  · show win0_3.index t (1 : Fin 3) * 64 + 1 * d.val = d.val; omega
  · show win0_3.index t (2 : Fin 3) * 768 + 1 * cc.val = cc.val; omega
  · show 768 * 2 + 64 * (t.val % 12) + d.val = 1536 + 64 * (t.val % 12) + d.val; omega

theorem wo_blk (c : Dev nD) (t : Fin cfg0.N) :
    wB (iblk m c 4 t) = woOf (m ((c : Thread nD τ).loc main_arg3)) (hOf t) := by
  obtain ⟨-, -, -, -, ⟨e0, e1, e2⟩, -⟩ := idx_facts t
  funext d o
  show (V m c main_v11 : S12x64x768.Idx → EReal) (((cfg0.win 4).blk t).view.emb (ix3 0 d o))
    = (m ((c : Thread nD τ).loc main_arg3) : S768x768.Idx → EReal) (ix2 o (hcol (hOf t) d))
  rw [arr_v11]
  refine transpose_heads_at _ _ _ _ (hOf t) d o (hcol (hOf t) d) ?_ ?_ ?_ ?_
  · show win0_4.index t (0 : Fin 3) * 1 + 1 * 0 = t.val % 12; omega
  · show win0_4.index t (1 : Fin 3) * 64 + 1 * d.val = d.val; omega
  · show win0_4.index t (2 : Fin 3) * 768 + 1 * o.val = o.val; omega
  · rfl

theorem pol_blk (c : Dev nD) (t : Fin cfg0.N) :
    pB (iblk m c 5 t) = polOf (m ((c : Thread nD τ).loc main_arg1)) (bOf t) := by
  obtain ⟨-, -, -, -, -, ⟨e0, e1, e2⟩, -⟩ := idx_facts t
  funext n
  show (V m c main_v14 : S8x1x1024.Idx → EReal) (((cfg0.win 5).blk t).view.emb (ix3 0 0 n))
    = (m ((c : Thread nD τ).loc main_arg1) : S8x1024x1.Idx → EReal) (ix3 (bOf t) n 0)
  rw [arr_v14]
  refine policy_at _ _ _ _ (bOf t) n ?_ ?_
  · show win0_5.index t (0 : Fin 3) * 1 + 1 * 0 = t.val / 12; omega
  · show win0_5.index t (2 : Fin 3) * 1024 + 1 * n.val = n.val; omega

theorem bias_blk (c : Dev nD) (t : Fin cfg0.N) (o : Fin 768) :
    (iblk m c 6 t : Vec Ideal S1x768 .f32) (ix2 0 o) = m ((c : Thread nD τ).loc main_arg4) (ix1 o) := by
  obtain ⟨-, -, -, -, -, -, e0, e1⟩ := idx_facts t
  show (V m c main_v15 : S1x768.Idx → EReal) (((cfg0.win 6).blk t).view.emb (ix2 0 o))
    = (m ((c : Thread nD τ).loc main_arg4) : S768.Idx → EReal) (ix1 o)
  rw [arr_v15]
  refine bias_at _ _ _ o ?_
  show win0_6.index t (1 : Fin 2) * 768 + 1 * o.val = o.val; omega

end Cert.KernelIdeal.Inputs

end
-- ==== Proof.KArray.lean ====
/-
  The kernel's result array after the run: the accumulator after head h of batch entry b is the sum of the
  outputs of heads 0 … h, the block written back at the last head is that sum over all twelve heads plus the
  bias, and those blocks tile the result.
-/
import proofs.«137695_j30880814859134_1_alg».proof.Proof.Gen.KernelIdeal.Value
import proofs.«137695_j30880814859134_1_alg».proof.Proof.KCases
import proofs.«137695_j30880814859134_1_alg».proof.Proof.KInputs

set_option maxRecDepth 16384

noncomputable section

namespace Cert.KernelIdeal.Arr

open Idealize.ShloMosaic Idealize.ShloMosaic.TcCoe Idealize.ShloMosaic.ValueIdx Idealize.SL.Sem
open Cert.KernelIdeal Cert.KernelIdeal.Gen Cert.KernelIdeal.Blk Cert.AttnSpec
open Cert.KernelIdeal.Value Cert.KernelIdeal.Cases Cert.KernelIdeal.Inputs

variable (m : (ℓ : Loc nD τ sig) → Buf (Elt Ideal) ℓ) (ρ : Dev nD → PrngReg)

/-- The specification at the kernel's argument arrays on core `c`. -/
abbrev spec (c : Dev nD) : S8x1024x768.Idx → EReal :=
  out (m ((c : Thread nD τ).loc main_arg0)) (m ((c : Thread nD τ).loc main_arg1)) (m ((c : Thread nD τ).loc main_arg2))
    (m ((c : Thread nD τ).loc main_arg3)) (m ((c : Thread nD τ).loc main_arg4))

/-- The head's output at grid point n (zero past the grid). -/
def addend (c : Dev nD) (n : ℕ) : S1024x768.Idx → EReal := fun y =>
  if h : n < cfg0.N then headB (iblk m c 0 ⟨n, h⟩) (iblk m c 1 ⟨n, h⟩) (iblk m c 2 ⟨n, h⟩) (iblk m c 3 ⟨n, h⟩) (iblk m c 4 ⟨n, h⟩) (iblk m c 5 ⟨n, h⟩) (y 0) (y 1) else 0

/-- At a batch entry's first head the accumulator is left at zero plus that head's output, whatever it held. -/
theorem sc_reset (c : Dev nD) (n : ℕ) (hb : n < cfg0.N) (h0 : n % 12 = 0) (acc : Vec Ideal S1024x768 .f32) (y : S1024x768.Idx) :
    scAt0_0 m c n hb acc y = cZero + addend m c n y := by
  have h1 : ¬ n % 12 = 11 := by omega
  unfold scAt0_0
  rw [dif_pos h0, dif_neg h1]
  refine (congrFun (sout_A c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N))) y).trans ?_
  unfold addend stepAcc
  rw [dif_pos hb]

/-- At every later head the accumulator is left at what it held plus that head's output. -/
theorem sc_step (c : Dev nD) (n : ℕ) (hb : n < cfg0.N) (h0 : ¬ n % 12 = 0) (acc : Vec Ideal S1024x768 .f32) (y : S1024x768.Idx) :
    scAt0_0 m c n hb acc y = acc y + addend m c n y := by
  unfold scAt0_0
  rw [dif_neg h0]
  by_cases h1 : n % 12 = 11
  · rw [dif_pos h1]
    refine (congrFun (sout_C c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc) y).trans ?_
    unfold addend stepAcc
    rw [dif_pos hb]
  · rw [dif_neg h1]
    refine (congrFun (sout_B c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) acc) y).trans ?_
    unfold addend stepAcc
    rw [dif_pos hb]

/-- The accumulator after point t, entry by entry: zero plus the outputs of the heads of its batch entry so far. -/
theorem acc_eq (c : Dev nD) (t : Fin cfg0.N) (y : S1024x768.Idx) :
    (outsAt0 m c t.val t.isLt).2 y = cZero + ∑ s ∈ Finset.range (t.val % 12 + 1), addend m c (12 * (t.val / 12) + s) y := by
  have hN : cfg0.N = 96 := N_0
  have ht := t.isLt
  rw [soutsAt0_0_eq m c t]
  exact Pipeline.accAt_add_apply (fun n h => scAt0_0 m c n h (VS0_0.read (Elt Ideal) VS0_0.junk)) (scAt0_0 m c)
    (fun _ => cZero) (addend m c) (12 * (t.val / 12)) 11
    (fun h i => sc_reset m c _ h (by omega) _ i)
    (fun n h acc i hlt hle => sc_step m c n h (by omega) acc i)
    (t.val % 12) (by omega) _ y

/-- At a batch entry's last head the output block is the accumulator plus the bias row. -/
theorem out_fin (c : Dev nD) (t : Fin cfg0.N) (h11 : t.val % 12 = 11) :
    (outsAt0 m c t.val t.isLt).1 = finishB ((outsAt0 m c t.val t.isLt).2) (iblk m c 6 t) := by
  have h0 : ¬ t.val % 12 = 0 := by omega
  rw [outsAt0_C m c t h0 h11]
  dsimp only
  rw [out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h11) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2,
    sout_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h11) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2]

/-- The head's output at point t = 12·b + h is head h of batch entry b of the specification. -/
theorem addend_eq (c : Dev nD) (t : Fin cfg0.N) (y : S1024x768.Idx) :
    addend m c t.val y = headSel (m ((c : Thread nD τ).loc main_arg0)) (m ((c : Thread nD τ).loc main_arg1))
      (m ((c : Thread nD τ).loc main_arg2)) (m ((c : Thread nD τ).loc main_arg3)) (bOf t) (hOf t) (y 0) (y 1) := by
  unfold addend
  rw [dif_pos t.isLt]
  show headB (iblk m c 0 t) (iblk m c 1 t) (iblk m c 2 t) (iblk m c 3 t) (iblk m c 4 t) (iblk m c 5 t) (y 0) (y 1) = _
  unfold headB headSel
  rw [x_blk m c t, wq_blk m c t, wk_blk m c t, wv_blk m c t, wo_blk m c t, pol_blk m c t]

/-- The outputs of the twelve points of a batch entry, summed in point order, are the sum over its heads. -/
theorem sum_heads (c : Dev nD) (t : Fin cfg0.N) (y : S1024x768.Idx) :
    ∑ s ∈ Finset.range 12, addend m c (12 * (t.val / 12) + s) y
      = ∑ h : Fin 12, headSel (m ((c : Thread nD τ).loc main_arg0)) (m ((c : Thread nD τ).loc main_arg1))
          (m ((c : Thread nD τ).loc main_arg2)) (m ((c : Thread nD τ).loc main_arg3)) (bOf t) h (y 0) (y 1) := by
  have hN : cfg0.N = 96 := N_0
  have ht := t.isLt
  rw [← Fin.sum_univ_eq_sum_range (fun s => addend m c (12 * (t.val / 12) + s) y) 12]
  refine Finset.sum_congr rfl fun h _ => ?_
  have hh := h.isLt
  have hlt : 12 * (t.val / 12) + h.val < cfg0.N := by omega
  have e := addend_eq m c ⟨12 * (t.val / 12) + h.val, hlt⟩ y
  rw [show bOf ⟨12 * (t.val / 12) + h.val, hlt⟩ = bOf t from Fin.ext (by show (12 * (t.val / 12) + h.val) / 12 = t.val / 12; omega),
    show hOf ⟨12 * (t.val / 12) + h.val, hlt⟩ = h from Fin.ext (by show (12 * (t.val / 12) + h.val) % 12 = h.val; omega)] at e
  exact e

/-- What the last head of batch entry b writes back at (n, o): the specification at (b, n, o). -/
theorem fin_val (c : Dev nD) (t : Fin cfg0.N) (h11 : t.val % 12 = 11) (n : Fin 1024) (o : Fin 768) :
    finishB ((outsAt0 m c t.val t.isLt).2) (iblk m c 6 t) (ix3 0 n o) = spec m c (ix3 (bOf t) n o) := by
  show (outsAt0 m c t.val t.isLt).2 (ix2 n o) + (iblk m c 6 t : Vec Ideal S1x768 .f32) (ix2 0 o) = _
  rw [acc_eq m c t (ix2 n o), h11, sum_heads m c t (ix2 n o), bias_blk m c t o,
    show (cZero : EReal) = 0 from Ideal.ofBits_zero_f32, zero_add]
  rfl

/-- The output block at point t: batch entry t / 12 on the leading axis, the whole of the other two. -/
theorem idx7 : ∀ t : Fin cfg0.N, win0_7.index t (0 : Fin 3) = t.val / 12 ∧ win0_7.index t (1 : Fin 3) = 0
    ∧ win0_7.index t (2 : Fin 3) = 0 :=
  (by decide +kernel : ∀ t : Fin grid0.N, _)

/-- What a writing point writes back is its block of the specification. -/
theorem flushed_eq (c : Dev nD) (t : Fin cfg0.N) (hf : (cfg0.win 7).flush t = true) :
    (dats m 0 c).flushed 7 t = ((cfg0.win 7).blk t).view.read (Elt Ideal) (spec m c) := by
  have h11 : t.val % 12 = 11 := (flush0_7 t).mp hf
  obtain ⟨e0, e1, e2⟩ := idx7 t
  rw [flushed7 m c t, out_fin m c t h11]
  funext y
  have hy0 : (y 0).val < 1 := (y 0).isLt
  have hy1 : (y 1).val < 1024 := (y 1).isLt
  have hy2 : (y 2).val < 768 := (y 2).isLt
  show finishB ((outsAt0 m c t.val t.isLt).2) (iblk m c 6 t) ((cfg0.win 7).xinj (grid0.coords t) y)
    = spec m c (((cfg0.win 7).blk t).view.emb y)
  have hL : (cfg0.win 7).xinj (grid0.coords t) y = ix3 0 ⟨(y 1).val, hy1⟩ ⟨(y 2).val, hy2⟩ := by
    funext a; apply Fin.ext
    match a with
    | ⟨0, _⟩ => show (y 0).val = 0; omega
    | ⟨1, _⟩ => rfl
    | ⟨2, _⟩ => rfl
  have hR : ((cfg0.win 7).blk t).view.emb y = ix3 (bOf t) ⟨(y 1).val, hy1⟩ ⟨(y 2).val, hy2⟩ := by
    funext a; apply Fin.ext
    match a with
    | ⟨0, _⟩ => show win0_7.index t (0 : Fin 3) * 1 + 1 * (y 0).val = t.val / 12; omega
    | ⟨1, _⟩ => show win0_7.index t (1 : Fin 3) * 1024 + 1 * (y 1).val = (y 1).val; omega
    | ⟨2, _⟩ => show win0_7.index t (2 : Fin 3) * 768 + 1 * (y 2).val = (y 2).val; omega
  rw [hL, hR]
  exact fin_val m c t h11 _ _

/-- An index of the result array lies in point t's block iff each coordinate lies in the block's range. -/
theorem mem_blk7 (t : Fin cfg0.N) (i : S8x1024x768.Idx) :
    i ∈ ((cfg0.win 7).blk t).view.set ↔ ∀ a : Fin 3, win0_7.index t a * S1x1024x768.size a ≤ (i a).val
      ∧ (i a).val < win0_7.index t a * S1x1024x768.size a + S1x1024x768.size a := by
  show i ∈ ((View.whole main_v16).slice (win0_7.rect t)).set ↔ _
  rw [View.set_slice_whole, Rect.mem_set_unit]
  exact Iff.rfl

/-- Every index (b, n, o) is written by the last head of batch entry b. -/
theorem cover7 (i : S8x1024x768.Idx) :
    ∃ t : Fin cfg0.N, (cfg0.win 7).flush t = true ∧ i ∈ ((cfg0.win 7).blk t).view.set := by
  have hi0 : (i 0).val < 8 := (i 0).isLt
  have hi1 : (i 1).val < 1024 := (i 1).isLt
  have hi2 : (i 2).val < 768 := (i 2).isLt
  have ht : 12 * (i 0).val + 11 < cfg0.N := lt_of_lt_of_eq (by omega : 12 * (i 0).val + 11 < 96) N_0.symm
  refine ⟨⟨12 * (i 0).val + 11, ht⟩, (flush0_7 _).mpr (by show (12 * (i 0).val + 11) % 12 = 11; omega), ?_⟩
  obtain ⟨e0, e1, e2⟩ := idx7 ⟨12 * (i 0).val + 11, ht⟩
  have e0' : win0_7.index ⟨12 * (i 0).val + 11, ht⟩ (0 : Fin 3) = (i 0).val := by
    rw [e0]; show (12 * (i 0).val + 11) / 12 = (i 0).val; omega
  rw [mem_blk7]
  intro a
  match a with
  | ⟨0, _⟩ => show win0_7.index _ (0 : Fin 3) * 1 ≤ (i 0).val ∧ (i 0).val < win0_7.index _ (0 : Fin 3) * 1 + 1; omega
  | ⟨1, _⟩ => show win0_7.index _ (1 : Fin 3) * 1024 ≤ (i 1).val ∧ (i 1).val < win0_7.index _ (1 : Fin 3) * 1024 + 1024; omega
  | ⟨2, _⟩ => show win0_7.index _ (2 : Fin 3) * 768 ≤ (i 2).val ∧ (i 2).val < win0_7.index _ (2 : Fin 3) * 768 + 768; omega

/-- After the run the result array is the specification of the arguments. -/
theorem final (c : Dev nD) : (dats m 0 c).arrAt 7 cfg0.N = spec m c :=
  (dats m 0 c).arrAt_eq_of_cover 7 (spec m c) (flushed_eq m c) cover7

/-- The kernel's run with its result named by the specification. -/
theorem run : θ_run defs (onTc (τ := τ) (main (F := Ideal))) ⟨m, fun _ => 0, ρ⟩ fun r => ∀ c : Dev nD,
      r.2.mem ((c : Thread nD τ).loc main_v16) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Arr

end
-- ==== Proof.RefStages.lean ====
/-
  The reference's intermediate arrays read at an index: the scaled queries, the key and value projections, the
  scores and their row maxima per batch entry and head, and the keep factor in its arithmetic spelling.
-/
import proofs.«137695_j30880814859134_1_alg».proof.Proof.Gen.ReferenceIdeal.Read
import proofs.«137695_j30880814859134_1_alg».proof.Proof.Spec
import Idealize.ShloMosaic.PureOps.Reduce

noncomputable section

namespace Cert.ReferenceIdeal.RefStages

open Idealize.ShloMosaic Idealize.ShloMosaic.TcCoe Idealize.ShloMosaic.ValueIdx Idealize.SL.Sem
open Cert.ReferenceIdeal Cert.ReferenceIdeal.Read Cert.AttnSpec

/-! ## Where each layout stage reads its operand

The fused projection has feature axis 2304 = 3 · 12 · 64; it is split into (part, head, feature), the part axis is
moved to the front, one part is cut out and its unit axis dropped. Read backwards, entry (b, h, n, d) of part j
is entry (b, n, 768·j + 64·h + d) of the fused projection. -/

/-- Dropping the leading unit axis of the query part. -/
theorem idx_v4 (b : Fin 8) (h : Fin 12) (n : Fin 1024) (d : Fin 64) :
    idx_main_v4 (ix4 b h n d) = ix5 (0 : Fin 1) b h n d :=
  funext fun a => Fin.ext (by
    have hb := b.isLt; have hh := h.isLt; have hn := n.isLt; have hd := d.isLt
    match a with
    | ⟨0, _⟩ => rfl
    | ⟨1, _⟩ => show (((b.val * 12 + h.val) * 1024 + n.val) * 64 + d.val) / 786432 % 8 = b.val; omega
    | ⟨2, _⟩ => show (((b.val * 12 + h.val) * 1024 + n.val) * 64 + d.val) / 65536 % 12 = h.val; omega
    | ⟨3, _⟩ => show (((b.val * 12 + h.val) * 1024 + n.val) * 64 + d.val) / 64 % 1024 = n.val; omega
    | ⟨4, _⟩ => show (((b.val * 12 + h.val) * 1024 + n.val) * 64 + d.val) % 64 = d.val; omega)

/-- Dropping the leading unit axis of the key part. -/
theorem idx_v8 (b : Fin 8) (h : Fin 12) (n : Fin 1024) (d : Fin 64) :
    idx_main_v8 (ix4 b h n d) = ix5 (0 : Fin 1) b h n d :=
  funext fun a => Fin.ext (by
    have hb := b.isLt; have hh := h.isLt; have hn := n.isLt; have hd := d.isLt
    match a with
    | ⟨0, _⟩ => rfl
    | ⟨1, _⟩ => show (((b.val * 12 + h.val) * 1024 + n.val) * 64 + d.val) / 786432 % 8 = b.val; omega
    | ⟨2, _⟩ => show (((b.val * 12 + h.val) * 1024 + n.val) * 64 + d.val) / 65536 % 12 = h.val; omega
    | ⟨3, _⟩ => show (((b.val * 12 + h.val) * 1024 + n.val) * 64 + d.val) / 64 % 1024 = n.val; omega
    | ⟨4, _⟩ => show (((b.val * 12 + h.val) * 1024 + n.val) * 64 + d.val) % 64 = d.val; omega)

/-- Dropping the leading unit axis of the value part. -/
theorem idx_v10 (b : Fin 8) (h : Fin 12) (n : Fin 1024) (d : Fin 64) :
    idx_main_v10 (ix4 b h n d) = ix5 (0 : Fin 1) b h n d :=
  funext fun a => Fin.ext (by
    have hb := b.isLt; have hh := h.isLt; have hn := n.isLt; have hd := d.isLt
    match a with
    | ⟨0, _⟩ => rfl
    | ⟨1, _⟩ => show (((b.val * 12 + h.val) * 1024 + n.val) * 64 + d.val) / 786432 % 8 = b.val; omega
    | ⟨2, _⟩ => show (((b.val * 12 + h.val) * 1024 + n.val) * 64 + d.val) / 65536 % 12 = h.val; omega
    | ⟨3, _⟩ => show (((b.val * 12 + h.val) * 1024 + n.val) * 64 + d.val) / 64 % 1024 = n.val; omega
    | ⟨4, _⟩ => show (((b.val * 12 + h.val) * 1024 + n.val) * 64 + d.val) % 64 = d.val; omega)

/-- The query part is part 0. -/
theorem idx_v3 (b : Fin 8) (h : Fin 12) (n : Fin 1024) (d : Fin 64) :
    idx_main_v3 (ix5 (0 : Fin 1) b h n d) = ix5 (0 : Fin 3) b h n d :=
  funext fun a => Fin.ext (by
    match a with
    | ⟨0, _⟩ => rfl
    | ⟨1, _⟩ => rfl
    | ⟨2, _⟩ => rfl
    | ⟨3, _⟩ => rfl
    | ⟨4, _⟩ => rfl)

/-- The key part is part 1. -/
theorem idx_v7 (b : Fin 8) (h : Fin 12) (n : Fin 1024) (d : Fin 64) :
    idx_main_v7 (ix5 (0 : Fin 1) b h n d) = ix5 (1 : Fin 3) b h n d :=
  funext fun a => Fin.ext (by
    match a with
    | ⟨0, _⟩ => rfl
    | ⟨1, _⟩ => rfl
    | ⟨2, _⟩ => rfl
    | ⟨3, _⟩ => rfl
    | ⟨4, _⟩ => rfl)

/-- The value part is part 2. -/
theorem idx_v9 (b : Fin 8) (h : Fin 12) (n : Fin 1024) (d : Fin 64) :
    idx_main_v9 (ix5 (0 : Fin 1) b h n d) = ix5 (2 : Fin 3) b h n d :=
  funext fun a => Fin.ext (by
    match a with
    | ⟨0, _⟩ => rfl
    | ⟨1, _⟩ => rfl
    | ⟨2, _⟩ => rfl
    | ⟨3, _⟩ => rfl
    | ⟨4, _⟩ => rfl)

/-- The part axis moved to the front: (j, b, h, n, d) comes from (b, n, j, h, d). -/
theorem idx_v2 (j : Fin 3) (b : Fin 8) (h : Fin 12) (n : Fin 1024) (d : Fin 64) :
    idx_main_v2 (ix5 j b h n d) = ix5 b n j h d :=
  funext fun a => Fin.ext (by
    match a with
    | ⟨0, _⟩ => rfl
    | ⟨1, _⟩ => rfl
    | ⟨2, _⟩ => rfl
    | ⟨3, _⟩ => rfl
    | ⟨4, _⟩ => rfl)

/-- The feature axis split in three: (b, n, j, h, d) comes from feature 768·j + 64·h + d of token (b, n). -/
theorem idx_v1 (j : Fin 3) (b : Fin 8) (h : Fin 12) (n : Fin 1024) (d : Fin 64) :
    idx_main_v1 (ix5 b n j h d) = ix3 b n (wrow j h d) :=
  funext fun a => Fin.ext (by
    have hb := b.isLt; have hh := h.isLt; have hn := n.isLt; have hd := d.isLt; have hj := j.isLt
    match a with
    | ⟨0, _⟩ => show ((((b.val * 1024 + n.val) * 3 + j.val) * 12 + h.val) * 64 + d.val) / 2359296 = b.val; omega
    | ⟨1, _⟩ => show ((((b.val * 1024 + n.val) * 3 + j.val) * 12 + h.val) * 64 + d.val) / 2304 % 1024 = n.val; omega
    | ⟨2, _⟩ => show ((((b.val * 1024 + n.val) * 3 + j.val) * 12 + h.val) * 64 + d.val) % 2304 = 768 * j.val + 64 * h.val + d.val; omega)

/-- The fused projection contracts the token's row ... -/
theorem lidx_v0 (b : Fin 8) (n : Fin 1024) (r : Fin 2304) (k : Fin 768) :
    lidx_main_v0 (ix3 b n r) k = ix3 b n k :=
  funext fun a => Fin.ext (by
    match a with
    | ⟨0, _⟩ => rfl
    | ⟨1, _⟩ => rfl
    | ⟨2, _⟩ => rfl)

/-- ... against row r of the stacked weight. -/
theorem ridx_v0 (b : Fin 8) (n : Fin 1024) (r : Fin 2304) (k : Fin 768) :
    ridx_main_v0 (ix3 b n r) k = ix2 r k :=
  funext fun a => Fin.ext (by
    match a with
    | ⟨0, _⟩ => rfl
    | ⟨1, _⟩ => rfl)

variable (x0 : (⟨S8x1024x768, .f32⟩ : BufTy).Contents (Elt Ideal)) (x1 : (⟨S8x1024x1, .f32⟩ : BufTy).Contents (Elt Ideal)) (x2 : (⟨S2304x768, .f32⟩ : BufTy).Contents (Elt Ideal))

/-- Part j of the rearranged projection is the projection on part j of the stacked weight. -/
theorem part_apply (j : Fin 3) (b : Fin 8) (h : Fin 12) (n : Fin 1024) (d : Fin 64) :
    val_main_v2 (F := Ideal) x0 x2 (ix5 j b h n d) = hProj (xOf x0 b) (wOf x2 j h) n d := by
  rw [val_main_v2_apply, val_main_v1_apply, val_main_v0_apply]
  simp only [idx_v2, idx_v1, lidx_v0, ridx_v0]
  rfl

theorem q_apply (b : Fin 8) (h : Fin 12) (n : Fin 1024) (d : Fin 64) :
    val_main_v6 (F := Ideal) x0 x2 (ix4 b h n d) = hQ (xOf x0 b) (wOf x2 0 h) n d := by
  rw [val_main_v6_apply, val_main_v5_apply, val_main_cst_apply, val_main_v4_apply, val_main_v3_apply]
  simp only [idx_v4, idx_v3, part_apply, Ideal.mulf_def, Ideal.ofBits_def]
  rfl

theorem k_apply (b : Fin 8) (h : Fin 12) (mk : Fin 1024) (d : Fin 64) :
    val_main_v8 (F := Ideal) x0 x2 (ix4 b h mk d) = hProj (xOf x0 b) (wOf x2 1 h) mk d := by
  rw [val_main_v8_apply, val_main_v7_apply]
  simp only [idx_v8, idx_v7, part_apply]

theorem v_apply (b : Fin 8) (h : Fin 12) (mk : Fin 1024) (d : Fin 64) :
    val_main_v10 (F := Ideal) x0 x2 (ix4 b h mk d) = hProj (xOf x0 b) (wOf x2 2 h) mk d := by
  rw [val_main_v10_apply, val_main_v9_apply]
  simp only [idx_v10, idx_v9, part_apply]

/-- The score contracts the query row ... -/
theorem lidx_v11 (b : Fin 8) (h : Fin 12) (n mk : Fin 1024) (k : Fin 64) :
    lidx_main_v11 (ix4 b h n mk) k = ix4 b h n k :=
  funext fun a => Fin.ext (by
    match a with
    | ⟨0, _⟩ => rfl
    | ⟨1, _⟩ => rfl
    | ⟨2, _⟩ => rfl
    | ⟨3, _⟩ => rfl)

/-- ... against the key row. -/
theorem ridx_v11 (b : Fin 8) (h : Fin 12) (n mk : Fin 1024) (k : Fin 64) :
    ridx_main_v11 (ix4 b h n mk) k = ix4 b h mk k :=
  funext fun a => Fin.ext (by
    match a with
    | ⟨0, _⟩ => rfl
    | ⟨1, _⟩ => rfl
    | ⟨2, _⟩ => rfl
    | ⟨3, _⟩ => rfl)

theorem score_apply (b : Fin 8) (h : Fin 12) (n mk : Fin 1024) :
    val_main_v11 (F := Ideal) x0 x2 (ix4 b h n mk) = hScore (xOf x0 b) (wOf x2 0 h) (wOf x2 1 h) n mk := by
  rw [val_main_v11_apply]
  simp only [lidx_v11, ridx_v11, q_apply, k_apply]
  rfl

/-! ## The row maximum

The maximum over the key axis at (b, h, n) folds `max` from -∞ over the scores (b, h, n, m), m the key. -/

/-- The score index over (b, h, n) with key m inserted on the reduced axis. -/
theorem lift_v27 (hr : S8x12x1024x1024.Reduces [3] S8x12x1024) (b : Fin 8) (h : Fin 12) (n : Fin 1024) (m : Fin 1024) :
    hr.lift (ix3 b h n) m = ix4 b h n m :=
  funext fun a => Fin.ext (by
    match a with
    | ⟨0, _⟩ => rfl
    | ⟨1, _⟩ => rfl
    | ⟨2, _⟩ => rfl
    | ⟨3, _⟩ => rfl)

theorem max_apply (b : Fin 8) (h : Fin 12) (n : Fin 1024) :
    val_main_v27 (F := Ideal) x0 x2 (ix3 b h n) = hMax (xOf x0 b) (wOf x2 0 h) (wOf x2 1 h) n := by
  unfold val_main_v27
  generalize hy : val_main_v11 (F := Ideal) x0 x2 = y
  refine (Host.reduce_eq_fold_single (FloatOps.maximumf (F := Ideal) (φ := .f32)) y _ Gen.reducesTo_S8x12x1024x1024_S8x12x1024_d3 (by decide) Gen.h_S_ (ix3 b h n)).trans ?_
  unfold hMax
  refine Finset.fold_congr (fun m _ => ?_)
  refine (congrArg y (lift_v27 _ b h n m)).trans ?_
  rw [← hy]
  exact score_apply x0 x2 b h n m

/-! ## The keep factor

The policy is laid along the key axis and broadcast over the queries; the diagonal indicator compares the query's
position with the key's; the factor is policy + (1 − policy) · indicator. -/

/-- The policy broadcast over the queries reads key mk of batch entry b. -/
theorem idx_v25 (b : Fin 8) (n mk : Fin 1024) :
    idx_main_v25 (ix4 b (0 : Fin 1) n mk) = ix4 b (0 : Fin 1) (0 : Fin 1) mk :=
  funext fun a => Fin.ext (by
    match a with
    | ⟨0, _⟩ => rfl
    | ⟨1, _⟩ => rfl
    | ⟨2, _⟩ => rfl
    | ⟨3, _⟩ => rfl)

/-- So does one minus the policy. -/
theorem idx_v22 (b : Fin 8) (n mk : Fin 1024) :
    idx_main_v22 (ix4 b (0 : Fin 1) n mk) = ix4 b (0 : Fin 1) (0 : Fin 1) mk :=
  funext fun a => Fin.ext (by
    match a with
    | ⟨0, _⟩ => rfl
    | ⟨1, _⟩ => rfl
    | ⟨2, _⟩ => rfl
    | ⟨3, _⟩ => rfl)

/-- The policy column laid along the key axis. -/
theorem idx_v12 (b : Fin 8) (mk : Fin 1024) :
    idx_main_v12 (ix4 b (0 : Fin 1) (0 : Fin 1) mk) = ix3 b mk (0 : Fin 1) :=
  funext fun a => Fin.ext (by
    have hb := b.isLt; have hm := mk.isLt
    match a with
    | ⟨0, _⟩ => show (((b.val * 1 + 0) * 1 + 0) * 1024 + mk.val) / 1024 = b.val; omega
    | ⟨1, _⟩ => show (((b.val * 1 + 0) * 1 + 0) * 1024 + mk.val) / 1 % 1024 = mk.val; omega
    | ⟨2, _⟩ => rfl)

/-- The indicator broadcast over the batch reads (n, mk). -/
theorem idx_v23 (b : Fin 8) (n mk : Fin 1024) :
    idx_main_v23 (ix4 b (0 : Fin 1) n mk) = ix4 (0 : Fin 1) (0 : Fin 1) n mk :=
  funext fun a => Fin.ext (by
    match a with
    | ⟨0, _⟩ => rfl
    | ⟨1, _⟩ => rfl
    | ⟨2, _⟩ => rfl
    | ⟨3, _⟩ => rfl)

/-- Its two leading unit axes dropped. -/
theorem idx_v19 (n mk : Fin 1024) :
    idx_main_v19 (ix4 (0 : Fin 1) (0 : Fin 1) n mk) = ix2 n mk :=
  funext fun a => Fin.ext (by
    have hn := n.isLt; have hm := mk.isLt
    match a with
    | ⟨0, _⟩ => show (((0 * 1 + 0) * 1024 + n.val) * 1024 + mk.val) / 1024 = n.val; omega
    | ⟨1, _⟩ => show (((0 * 1 + 0) * 1024 + n.val) * 1024 + mk.val) % 1024 = mk.val; omega)

/-- The word that compares the query's position with the key's is set exactly on the diagonal: positions below
    1024 are told apart by their 32-bit words. -/
theorem diag_word (n mk : Fin 1024) :
    IntOp.cmpi .eq (IntOp.addi (BitVec.ofNat 32 n.val) 0#32) (BitVec.ofNat 32 mk.val) = if n = mk then 1#1 else 0#1 := by
  have hz : IntOp.addi (BitVec.ofNat 32 n.val) 0#32 = BitVec.ofNat 32 n.val := BitVec.add_zero _
  rw [hz]
  show BitVec.ofBool (BitVec.ofNat 32 n.val == BitVec.ofNat 32 mk.val) = _
  by_cases hnm : n = mk
  · subst hnm
    rw [if_pos rfl, beq_self_eq_true]
    rfl
  · have hne : BitVec.ofNat 32 n.val ≠ BitVec.ofNat 32 mk.val := fun he => hnm (Fin.ext (by
      have h2 := congrArg BitVec.toNat he
      have hn := n.isLt
      have hm := mk.isLt
      simp only [BitVec.toNat_ofNat] at h2
      omega))
    rw [if_neg hnm, beq_eq_false_iff_ne.2 hne]
    rfl

/-- The word 0x3F800000 has a clear sign, exponent field 127 and an empty fraction: it denotes 2²³ · 2⁻²³ = 1. -/
theorem one_word : cOne = ((1 : ℝ) : EReal) := by
  show Ideal.ieee 8 23 (0x3F800000#32 : BitVec 32) = _
  have hs : ((0x3F800000#32 : BitVec 32).extractLsb' (8 + 23) 1 == 1#1) = false := by decide
  have he : ((0x3F800000#32 : BitVec 32).extractLsb' 23 8).toNat = 127 := by decide
  have hf : ((0x3F800000#32 : BitVec 32).extractLsb' 0 23).toNat = 0 := by decide
  unfold Ideal.ieee
  simp only [hs, he, hf]
  norm_num

/-- The set bit converts to one, the clear bit to zero. -/
theorem diag_val (n mk : Fin 1024) :
    FloatOps.uitofp (F := Ideal) .f32 (if n = mk then 1#1 else 0#1) = if n = mk then cOne else cZero := by
  by_cases hnm : n = mk
  · rw [if_pos hnm, if_pos hnm, one_word]
    show (((1#1 : BitVec 1).toNat : ℝ) : EReal) = ((1 : ℝ) : EReal)
    norm_num
  · rw [if_neg hnm, if_neg hnm]
    show (((0#1 : BitVec 1).toNat : ℝ) : EReal) = Ideal.ofBits .f32 0x00000000#32
    rw [Ideal.ofBits_zero_f32]
    norm_num

/-- The diagonal indicator at (n, mk). -/
theorem diag_apply (n mk : Fin 1024) :
    val_main_v18 (F := Ideal) (ix2 n mk) = if n = mk then cOne else cZero := by
  rw [val_main_v18_apply, val_main_v17_apply, val_main_v16_apply, val_main_v13_apply, val_main_v14_apply,
    val_main_v15_apply, val_main_c_apply]
  exact (congrArg (FloatOps.uitofp (F := Ideal) .f32) (diag_word n mk)).trans (diag_val n mk)

/-- The policy laid along the key axis, at key mk of batch entry b. -/
theorem pol_apply (b : Fin 8) (mk : Fin 1024) :
    val_main_v12 (F := Ideal) x1 (ix4 b (0 : Fin 1) (0 : Fin 1) mk) = polOf x1 b mk := by
  rw [val_main_v12_apply, idx_v12]
  rfl

theorem keep_apply (b : Fin 8) (n mk : Fin 1024) :
    val_main_v26 (F := Ideal) x1 (ix4 b 0 n mk) = keepArith (polOf x1 b) n mk := by
  rw [val_main_v26_apply, val_main_v25_apply, val_main_v24_apply, val_main_v22_apply, val_main_v21_apply,
    val_main_v20_apply, val_main_cst_0_apply, val_main_v23_apply, val_main_v19_apply]
  simp only [idx_v25, idx_v22, idx_v23, idx_v19, pol_apply, diag_apply, Ideal.addf_def, Ideal.subf_def, Ideal.mulf_def,
    Ideal.ofBits_def]
  rfl

end Cert.ReferenceIdeal.RefStages

end
-- ==== Proof.RefValue.lean ====
/-
  The reference's result as the specification in its flat spelling: probabilities from the scores, maxima and keep
  factors, the mixture of the value rows, heads laid side by side along the feature axis, one contraction with the
  output weight, the bias.
-/
import proofs.«137695_j30880814859134_1_alg».proof.Proof.RefStages

noncomputable section

namespace Cert.ReferenceIdeal.RefValue

open Idealize.ShloMosaic Idealize.ShloMosaic.TcCoe Idealize.ShloMosaic.ValueIdx Idealize.SL.Sem
open Cert.ReferenceIdeal Cert.ReferenceIdeal.Read Cert.AttnSpec
open Cert.ReferenceIdeal.RefStages

section Stages

variable (x0 : (⟨S8x1024x768, .f32⟩ : BufTy).Contents (Elt Ideal)) (x1 : (⟨S8x1024x1, .f32⟩ : BufTy).Contents (Elt Ideal)) (x2 : (⟨S2304x768, .f32⟩ : BufTy).Contents (Elt Ideal))

/-- The unnormalised weight: the exponential of the score less the row maximum (the maximum broadcast back along the
    keys), times the keep factor (the same for all twelve heads). -/
theorem weight_apply (b : Fin 8) (h : Fin 12) (n mk : Fin 1024) :
    val_main_v33 (F := Ideal) x0 x1 x2 (ix4 b h n mk)
      = hEm (xOf x0 b) (wOf x2 0 h) (wOf x2 1 h) (keepArith (polOf x1 b)) n mk := by
  have e1 : idx_main_v28 (idx_main_v29 (ix4 b h n mk)) = ix3 b h n :=
    funext fun a => Fin.ext (by match a with | ⟨0, _⟩ => rfl | ⟨1, _⟩ => rfl | ⟨2, _⟩ => rfl)
  have e2 : idx_main_v32 (ix4 b h n mk) = ix4 b 0 n mk :=
    funext fun a => Fin.ext (by match a with | ⟨0, _⟩ => rfl | ⟨1, _⟩ => rfl | ⟨2, _⟩ => rfl | ⟨3, _⟩ => rfl)
  rw [val_main_v33_apply, val_main_v31_apply, val_main_v30_apply, val_main_v29_apply, val_main_v28_apply,
    val_main_v32_apply, e1, e2, score_apply, max_apply, keep_apply]
  simp only [Ideal.mulf_def, Ideal.subf_def, Ideal.hostUnary_exp_def]
  rfl

/-- The normaliser: the sum of the weights over the keys, started from the zero word. -/
theorem norm_apply (b : Fin 8) (h : Fin 12) (n : Fin 1024) :
    val_main_v36 (F := Ideal) x0 x1 x2 (ix3 b h n)
      = hDen (xOf x0 b) (wOf x2 0 h) (wOf x2 1 h) (keepArith (polOf x1 b)) n := by
  rw [val_main_v36_apply, val_main_cst_3_apply, Ideal.ofBits_def, Ideal.ofBits_zero_f32, zero_add]
  unfold hDen
  refine Finset.sum_congr rfl fun k _ => ?_
  have e : idx_main_v36 (ix3 b h n) k = ix4 b h n k :=
    funext fun a => Fin.ext (by match a with | ⟨0, _⟩ => rfl | ⟨1, _⟩ => rfl | ⟨2, _⟩ => rfl | ⟨3, _⟩ => rfl)
  rw [e, weight_apply]

/-- The smoothed probability: (weight + ε/N) over (normaliser + ε), the denominator broadcast back along the keys. -/
theorem prob_apply (b : Fin 8) (h : Fin 12) (n mk : Fin 1024) :
    val_main_v41 (F := Ideal) x0 x1 x2 (ix4 b h n mk)
      = hProb (xOf x0 b) (wOf x2 0 h) (wOf x2 1 h) (keepArith (polOf x1 b)) n mk := by
  have e : idx_main_v37 (idx_main_v40 (ix4 b h n mk)) = ix3 b h n :=
    funext fun a => Fin.ext (by match a with | ⟨0, _⟩ => rfl | ⟨1, _⟩ => rfl | ⟨2, _⟩ => rfl)
  rw [val_main_v41_apply, val_main_v35_apply, val_main_v34_apply, val_main_cst_2_apply, val_main_v40_apply,
    val_main_v39_apply, val_main_v37_apply, val_main_v38_apply, val_main_cst_4_apply, e, weight_apply, norm_apply]
  simp only [Ideal.hostDivf_def, Ideal.addf_def, Ideal.ofBits_def]
  rfl

/-- The mixture of the value rows with the probabilities, contracted over the keys. -/
theorem mix_apply (b : Fin 8) (h : Fin 12) (n : Fin 1024) (d : Fin 64) :
    val_main_v42 (F := Ideal) x0 x1 x2 (ix4 b h n d)
      = hMix (xOf x0 b) (wOf x2 0 h) (wOf x2 1 h) (wOf x2 2 h) (keepArith (polOf x1 b)) n d := by
  rw [val_main_v42_apply]
  unfold hMix
  refine Finset.sum_congr rfl fun k _ => ?_
  have el : lidx_main_v42 (ix4 b h n d) k = ix4 b h n k :=
    funext fun a => Fin.ext (by match a with | ⟨0, _⟩ => rfl | ⟨1, _⟩ => rfl | ⟨2, _⟩ => rfl | ⟨3, _⟩ => rfl)
  have er : ridx_main_v42 (ix4 b h n d) k = ix4 b h k d :=
    funext fun a => Fin.ext (by match a with | ⟨0, _⟩ => rfl | ⟨1, _⟩ => rfl | ⟨2, _⟩ => rfl | ⟨3, _⟩ => rfl)
  rw [el, er, prob_apply, v_apply]

/-- Heads side by side: flat feature `c` of token `n` is feature `c % 64` of head `c / 64`. -/
theorem flat_apply (b : Fin 8) (n : Fin 1024) (c : Fin 768) :
    val_main_v44 (F := Ideal) x0 x1 x2 (ix3 b n c) = mixFlat x0 x1 x2 b n c := by
  have hb : b.val < 8 := b.isLt
  have hn : n.val < 1024 := n.isLt
  have hc : c.val < 768 := c.isLt
  have e : idx_main_v43 (idx_main_v44 (ix3 b n c))
      = ix4 b (⟨c.val / 64, by omega⟩ : Fin 12) n (⟨c.val % 64, Nat.mod_lt _ (by decide)⟩ : Fin 64) :=
    funext fun a => Fin.ext (by
      match a with
      | ⟨0, _⟩ => show ((b.val * 1024 + n.val) * 768 + c.val) / 786432 = b.val; omega
      | ⟨1, _⟩ => show ((b.val * 1024 + n.val) * 768 + c.val) / 64 % 12 = c.val / 64; omega
      | ⟨2, _⟩ => show ((b.val * 1024 + n.val) * 768 + c.val) / 768 % 1024 = n.val; omega
      | ⟨3, _⟩ => show ((b.val * 1024 + n.val) * 768 + c.val) % 64 = c.val % 64; omega)
  rw [val_main_v44_apply, val_main_v43_apply, e, mix_apply]
  rfl

end Stages

/-- The last stage: the flat mixture contracted with the output weight over the flat feature axis, plus the bias
    broadcast over batch entries and tokens. -/
theorem ref_eq (x0 : (⟨S8x1024x768, .f32⟩ : BufTy).Contents (Elt Ideal)) (x1 : (⟨S8x1024x1, .f32⟩ : BufTy).Contents (Elt Ideal)) (x2 : (⟨S2304x768, .f32⟩ : BufTy).Contents (Elt Ideal)) (x3 : (⟨S768x768, .f32⟩ : BufTy).Contents (Elt Ideal)) (x4 : (⟨S768, .f32⟩ : BufTy).Contents (Elt Ideal)) :
    val_main_v48 (F := Ideal) x0 x1 x2 x3 x4 = outFlat x0 x1 x2 x3 x4 := by
  funext i
  obtain ⟨b, n, o, rfl⟩ : ∃ (b : Fin 8) (n : Fin 1024) (o : Fin 768), i = ix3 b n o := ⟨i 0, i 1, i 2, eq_ix3 i⟩
  have e : idx_main_v46 (idx_main_v47 (ix3 b n o)) = ix1 o :=
    funext fun a => Fin.ext (by match a with | ⟨0, _⟩ => rfl)
  rw [val_main_v48_apply, val_main_v45_apply, val_main_v47_apply, val_main_v46_apply, e, Ideal.addf_def]
  show _ = (∑ c : Fin 768, mixFlat x0 x1 x2 b n c * x3 (ix2 o c)) + x4 (ix1 o)
  refine congrArg (· + x4 (ix1 o)) (Finset.sum_congr rfl fun k _ => ?_)
  have el : lidx_main_v45 (ix3 b n o) k = ix3 b n k :=
    funext fun a => Fin.ext (by match a with | ⟨0, _⟩ => rfl | ⟨1, _⟩ => rfl | ⟨2, _⟩ => rfl)
  have er : ridx_main_v45 (ix3 b n o) k = ix2 o k :=
    funext fun a => Fin.ext (by match a with | ⟨0, _⟩ => rfl | ⟨1, _⟩ => rfl)
  rw [el, er, flat_apply]

end Cert.ReferenceIdeal.RefValue

end
-- ==== Proof.Algebra.lean ====
/-
  The two spellings of the result agree where the policy array holds real numbers: the keep factor by arithmetic
  is the keep factor by selection, and a sum over the flat feature axis c = 64·h + d is the sum over heads of the
  sums over their features. And the precondition makes every policy entry a real number.
-/
import proofs.«137695_j30880814859134_1_alg».proof.Proof.Spec
import proofs.«137695_j30880814859134_1_alg».proof.Pre_finite_inputs
import proofs.«137695_j30880814859134_1_alg».proof.Proof.Gen.Pre_finite_inputs
import Idealize.ShloMosaic.Lib.ReduceAll

noncomputable section

namespace Cert.AttnSpec

open Idealize.ShloMosaic Idealize.ShloMosaic.ValueIdx

/-! ## The keep factor -/

/-- The word of the literal one denotes the real number 1. -/
theorem cOne_eq : cOne = ((1 : ℝ) : EReal) := by
  show Ideal.ofBits .f32 0x3F800000#32 = _
  simp [Ideal.ofBits, Ideal.ieee, -EReal.coe_mul]; norm_num

/-- The word of the literal zero denotes the real number 0. -/
theorem cZero_eq : cZero = ((0 : ℝ) : EReal) := by
  show Ideal.ofBits .f32 0x00000000#32 = _
  simp [Ideal.ofBits, Ideal.ieee]

/-- For a real policy r: on the diagonal r + (1 − r)·1 = 1, off it r + (1 − r)·0 = r. -/
theorem keepArith_eq_keepSel (pol : Fin 1024 → EReal) (hp : ∀ mk, ∃ r : ℝ, pol mk = (r : EReal)) :
    keepArith pol = keepSel pol := by
  funext n m
  obtain ⟨r, hr⟩ := hp m
  unfold keepArith keepSel
  rw [hr, cOne_eq, cZero_eq]
  by_cases h : n = m
  · rw [if_pos h, if_pos h, ← EReal.coe_sub, ← EReal.coe_mul, ← EReal.coe_add]
    congr 1; ring
  · rw [if_neg h, if_neg h, ← EReal.coe_sub, ← EReal.coe_mul, ← EReal.coe_add]
    congr 1; ring

/-! ## The flat feature axis -/

/-- Head and feature against the flat feature axis: (h, d) ↦ 64·h + d, with inverse c ↦ (c / 64, c % 64). -/
def hcolEquiv : Fin 12 × Fin 64 ≃ Fin 768 where
  toFun p := hcol p.1 p.2
  invFun c := (⟨c.val / 64, by omega⟩, ⟨c.val % 64, by omega⟩)
  left_inv p := by
    rcases p with ⟨h, d⟩
    refine Prod.ext (Fin.ext ?_) (Fin.ext ?_)
    · show (64 * h.val + d.val) / 64 = h.val
      omega
    · show (64 * h.val + d.val) % 64 = d.val
      omega
  right_inv c := by
    refine Fin.ext ?_
    show 64 * (c.val / 64) + c.val % 64 = c.val
    omega

/-- A sum over the flat feature axis is the sum over heads of the sums over their features. -/
theorem sum_flat (f : Fin 768 → EReal) : ∑ c : Fin 768, f c = ∑ h : Fin 12, ∑ d : Fin 64, f (hcol h d) := by
  rw [← Equiv.sum_comp hcolEquiv f, Fintype.sum_prod_type]
  rfl

/-- At the flat feature 64·h + d the side-by-side mixture is head h's mixture at feature d, the keep factor read
    by selection (the policy being real). -/
theorem mixFlat_hcol (X : SX.Idx → EReal) (P : SP.Idx → EReal) (W : SW.Idx → EReal)
    (hP : ∀ i, ∃ r : ℝ, P i = (r : EReal)) (b : Fin 8) (n : Fin 1024) (h : Fin 12) (d : Fin 64) :
    mixFlat X P W b n (hcol h d)
      = hMix (xOf X b) (wOf W 0 h) (wOf W 1 h) (wOf W 2 h) (keepSel (polOf P b)) n d := by
  have e1 : ∀ hh : (hcol h d).val / 64 < 12, (⟨(hcol h d).val / 64, hh⟩ : Fin 12) = h := fun hh =>
    Fin.ext (by show (64 * h.val + d.val) / 64 = h.val; omega)
  have e2 : ∀ hh : (hcol h d).val % 64 < 64, (⟨(hcol h d).val % 64, hh⟩ : Fin 64) = d := fun hh =>
    Fin.ext (by show (64 * h.val + d.val) % 64 = d.val; omega)
  unfold mixFlat
  rw [keepArith_eq_keepSel (polOf P b) (fun m => hP _), e1, e2]

/-- The contraction over the flat feature axis, head by head. -/
theorem flat_contraction (X : SX.Idx → EReal) (P : SP.Idx → EReal) (W : SW.Idx → EReal) (Wo : SO.Idx → EReal)
    (hP : ∀ i, ∃ r : ℝ, P i = (r : EReal)) (b : Fin 8) (n : Fin 1024) (o : Fin 768) :
    ∑ c : Fin 768, mixFlat X P W b n c * Wo (ix2 o c) = ∑ h : Fin 12, headSel X P W Wo b h n o := by
  rw [sum_flat]
  refine Finset.sum_congr rfl fun h _ => ?_
  unfold headSel hOut
  refine Finset.sum_congr rfl fun d _ => ?_
  rw [mixFlat_hcol X P W hP]
  rfl

theorem outFlat_eq_out (X : SX.Idx → EReal) (P : SP.Idx → EReal) (W : SW.Idx → EReal) (Wo : SO.Idx → EReal) (B : SB.Idx → EReal)
    (hP : ∀ i, ∃ r : ℝ, P i = (r : EReal)) :
    outFlat X P W Wo B = out X P W Wo B := by
  funext i
  exact congrArg (· + B (ix1 (i 2))) (flat_contraction X P W Wo hP (i 0) (i 1) (i 2))

/-! ## The precondition -/

/-- The result of a reduction over every axis has one index. -/
instance subsingleton_scalar_idx : Subsingleton Cert.Pre_finite_inputs.S_.Idx := ⟨fun a b => funext fun d => d.elim0⟩

/-- An extended real whose absolute value max(x, −x) is strictly below +∞ is a real number. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | top => simp [Ideal.cmp] at h
  | coe r => exact ⟨r, rfl⟩

/-- Under the precondition (every float input finite) every policy entry is a real number. -/
theorem policy_real_of_pre [Cert.Pre_finite_inputs.Facts]
    (x : FVec Ideal Cert.Pre_finite_inputs.S8x1024x768 .f32) (p : FVec Ideal Cert.Pre_finite_inputs.S8x1024x1 .f32)
    (w : FVec Ideal Cert.Pre_finite_inputs.S2304x768 .f32) (wo : FVec Ideal Cert.Pre_finite_inputs.S768x768 .f32)
    (bb : FVec Ideal Cert.Pre_finite_inputs.S768 .f32)
    (h : Cert.Pre_finite_inputs.fn (F := Ideal) x p w wo bb = fun _ => 1#1) :
    ∀ i, ∃ r : ℝ, p i = (r : EReal) := by
  intro i
  -- the conjunction is ((((x ∧ p) ∧ w) ∧ wo) ∧ b): three left halves, then the right half, is the policy's conjunct
  have h0 := congrFun h ix0
  dsimp only [Cert.Pre_finite_inputs.fn, Cert.Pre_finite_inputs.fn_part1] at h0
  have h1 := (IntOp.andi_eq_one.1 h0).1
  have h2 := (IntOp.andi_eq_one.1 h1).1
  have h3 := (IntOp.andi_eq_one.1 h2).1
  have h4 := (IntOp.andi_eq_one.1 h3).2
  exact real_of_abs_lt_top (p i) (Host.reduce_andi_all _ _ _ _ _ h4 i)

end Cert.AttnSpec

end
-- ==== Proof.lean ====
/-
  A fused multi-head attention block with a keep-mask on the keys (eight batch entries, 1024 tokens of width 768,
  twelve heads of width 64) against its plain formulation, as extended reals.

  Both programs compute, for batch entry b, token n and output feature o,
      ( Σ over heads h of  Σ_d a_h(n, d) · w_proj[o, 64·h + d] )  +  b_proj[o],
  where a_h is the head's mixture of value rows under the probabilities
      π(n, m) = (e(n, m) + ε/N) / (Σ_m e(n, m) + ε),   e(n, m) = exp(s(n, m) − max_m s(n, m)) · keep(n, m),
  s the scaled dot products of the head's queries and keys (Proof/Spec.lean).

  The kernel runs a grid of (batch entry, head): it projects keys and values once per point, loops over four tiles of
  256 queries, adds each tile's head output into an accumulator carried across the heads of a batch entry (cleared
  at the first head) and, at the last head, writes accumulator + bias back. Its keep factor is a selection: 1 on
  the diagonal, the key's policy elsewhere. What a point leaves in the accumulator is read off the loop's four
  tiles (Proof/KCases.lean over Proof/KPayload.lean and Proof/KPaySmall.lean), folded over the heads and tiled into
  the result array (Proof/KArray.lean over Proof/KInputs.lean): the result is `AttnSpec.out` of the arguments.

  The reference contracts once over the flat feature axis c = 64·h + d and spells the keep factor by arithmetic,
  policy + (1 − policy)·[n = m] (Proof/RefValue.lean over Proof/RefStages.lean): its result is `AttnSpec.outFlat`.

  The two spellings agree where the policy array holds real numbers (Proof/Algebra.lean): on the diagonal
  p + (1 − p) = 1, off it p + (1 − p)·0 = p, and a sum over c = 64·h + d is the sum over h of the sums over d. The
  precondition (every float input finite) makes every policy entry real; nothing else of it is used.
-/
import proofs.«137695_j30880814859134_1_alg».proof.Defs
import proofs.«137695_j30880814859134_1_alg».proof.Proof.Gen.Kernel
import proofs.«137695_j30880814859134_1_alg».proof.Proof.Gen.Kernel.Skeleton
import proofs.«137695_j30880814859134_1_alg».proof.Proof.Gen.Kernel.Loops
import proofs.«137695_j30880814859134_1_alg».proof.Proof.Gen.Kernel.Launch
import proofs.«137695_j30880814859134_1_alg».proof.Proof.Gen.Kernel.Points
import proofs.«137695_j30880814859134_1_alg».proof.Proof.Gen.Kernel.Frame
import proofs.«137695_j30880814859134_1_alg».proof.Proof.Gen.KernelIdeal
import proofs.«137695_j30880814859134_1_alg».proof.Proof.Gen.KernelIdeal.Skeleton
import proofs.«137695_j30880814859134_1_alg».proof.Proof.Gen.KernelIdeal.Loops
import proofs.«137695_j30880814859134_1_alg».proof.Proof.Gen.KernelIdeal.Launch
import proofs.«137695_j30880814859134_1_alg».proof.Proof.Gen.KernelIdeal.Points
import proofs.«137695_j30880814859134_1_alg».proof.Proof.Gen.KernelIdeal.Frame
import proofs.«137695_j30880814859134_1_alg».proof.Proof.Gen.ReferenceIdeal
import proofs.«137695_j30880814859134_1_alg».proof.Proof.Gen.KernelIdeal.Value
import proofs.«137695_j30880814859134_1_alg».proof.Proof.Gen.ReferenceIdeal.Run
import proofs.«137695_j30880814859134_1_alg».proof.Proof.Gen.ReferenceIdeal.Read
import proofs.«137695_j30880814859134_1_alg».proof.Proof.Gen.Pre_finite_inputs
import proofs.«137695_j30880814859134_1_alg».proof.Proof.KArray
import proofs.«137695_j30880814859134_1_alg».proof.Proof.RefValue
import proofs.«137695_j30880814859134_1_alg».proof.Proof.Algebra
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel := fun m ρ _ => Cert.Kernel.Gen.frame m ρ

/-- So does the kernel read over the extended reals. -/
theorem frame_ki : Cert.frame_KernelIdeal := fun m ρ _ => Cert.KernelIdeal.Gen.frame m ρ

/-- The reference is a straight line of array operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the five arguments, the kernel ends at the head-by-head spelling of the block and the
    reference at the flat one, and under the precondition the two are one array. -/
theorem algebraic : Cert.algebraic_KernelIdeal_ReferenceIdeal := by
  intro m ρ m' ρ' hpre hagree
  refine ⟨fun c => Cert.KernelIdeal.Arr.spec m c, Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, Cert.ReferenceIdeal.RefValue.ref_eq,
    (hagree c).1, (hagree c).2.1, (hagree c).2.2.1, (hagree c).2.2.2.1, (hagree c).2.2.2.2]
  exact Cert.AttnSpec.outFlat_eq_out _ _ _ _ _ (Cert.AttnSpec.policy_real_of_pre _ _ _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
